-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S16x64x1024 : Shape := ⟨3, ![16, 64, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S16x64x1024 .f32) (main_arg5 : FVec F S16x64x1024 .f32) (main_arg6 : FVec F S1024x1024 .f32) (main_v13 : IVec S_ 1) (main_v16 : IVec S16x64x1024 1) : IVec S_ 1 :=
  let main_c_5 : IVec S_ 1 := constantI S_ 1 1#1
  let main_v17 : IVec S_ 1 := (fun x v => Host.reduce IntOp.andi x v reducesTo_S16x64x1024_S_d0_1_2 h_S_) main_v16 main_c_5
  let main_v18 : IVec S_ 1 := andi main_v13 main_v17
  let main_v19 : FVec F S16x64x1024 .f32 := Host.absf main_arg4
  let main_cst_6 : FVec F S_ .f32 := constant S_ .f32 0x7F800000#32
  let main_v20 : FVec F S16x64x1024 .f32 := broadcastInDim S16x64x1024 ![] bcast_S_S16x64x1024 main_cst_6
  let main_v21 : IVec S16x64x1024 1 := cmpf .olt main_v19 main_v20
  let main_c_7 : IVec S_ 1 := constantI S_ 1 1#1
  let main_v22 : IVec S_ 1 := (fun x v => Host.reduce IntOp.andi x v reducesTo_S16x64x1024_S_d0_1_2 h_S_) main_v21 main_c_7
  let main_v23 : IVec S_ 1 := andi main_v18 main_v22
  let main_v24 : FVec F S16x64x1024 .f32 := Host.absf main_arg5
  let main_cst_8 : FVec F S_ .f32 := constant S_ .f32 0x7F800000#32
  let main_v25 : FVec F S16x64x1024 .f32 := broadcastInDim S16x64x1024 ![] bcast_S_S16x64x1024 main_cst_8
  let main_v26 : IVec S16x64x1024 1 := cmpf .olt main_v24 main_v25
  let main_c_9 : IVec S_ 1 := constantI S_ 1 1#1
  let main_v27 : IVec S_ 1 := (fun x v => Host.reduce IntOp.andi x v reducesTo_S16x64x1024_S_d0_1_2 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S2x2048x1024 .f32) (main_arg1 : FVec F S2x2048x1024 .f32) (main_arg2 : FVec F S2x2048x1024 .f32) (main_arg3 : FVec F S16x64x1024 .f32) (main_arg4 : FVec F S16x64x1024 .f32) (main_arg5 : FVec F S16x64x1024 .f32) (main_arg6 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S16x64x1024 .f32 := Host.absf main_arg3
  let main_cst_4 : FVec F S_ .f32 := constant S_ .f32 0x7F800000#32
  let main_v15 : FVec F S16x64x1024 .f32 := broadcastInDim S16x64x1024 ![] bcast_S_S16x64x1024 main_cst_4
  let main_v16 : IVec S16x64x1024 1 := cmpf .olt main_v14 main_v15
  fn_part1 (F := F) main_arg4 main_arg5 main_arg6 main_v13 main_v16
-- ==== Kernel.lean ====
abbrev S2x2048x1024 : Shape := ⟨3, ![2, 2048, 1024]⟩
abbrev S16x64x1024 : Shape := ⟨3, ![16, 64, 1024]⟩
abbrev S1024x1024 : Shape := ⟨2, ![1024, 1024]⟩
abbrev S4096x1024 : Shape := ⟨2, ![4096, 1024]⟩
abbrev S1x256x128 : Shape := ⟨3, ![1, 256, 128]⟩
abbrev S1x2048x128 : Shape := ⟨3, ![1, 2048, 128]⟩
abbrev S128x1024 : Shape := ⟨2, ![128, 1024]⟩
abbrev S1x256x1024 : Shape := ⟨3, ![1, 256, 1024]⟩
abbrev S256x1024 : Shape := ⟨2, ![256, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 28
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | .hbm, ⟨23, _⟩ => ⟨S4096x1024, .bf16⟩
  | .hbm, ⟨24, _⟩ => ⟨S2x2048x1024, .bf16⟩
  | .hbm, ⟨25, _⟩ => ⟨S2x2048x1024, .bf16⟩
  | .hbm, ⟨26, _⟩ => ⟨S2x2048x1024, .bf16⟩
  | .hbm, ⟨27, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x256x128, .bf16⟩
  | .local _ .vmem, ⟨16, _⟩ => ⟨S1x256x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S128x1024, .bf16⟩
  | .local _ .vmem, ⟨22, _⟩ => ⟨S128x1024, .bf16⟩
  | .local _ .vmem, ⟨23, _⟩ => ⟨S1x256x1024, .f32⟩
  | .local _ .vmem, ⟨24, _⟩ => ⟨S1x256x1024, .f32⟩
  | .local _ .vmem, ⟨25, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![2, 8, 8], ![false, false, false]⟩

def k3_cond2 (i : grid3.Coords) : BitVec 1 :=
  let arg2 : BitVec 32 := BitVec.ofNat 32 (i 2).val
  let c7_i32 : BitVec 32 := 7#32
  let v53 : BitVec 1 := Scalar.cmpi .eq arg2 c7_i32
  let v54 : BitVec 32 := Scalar.extui v53
  let c0_i32_25 : BitVec 32 := 0#32
  let v55 : BitVec 1 := Scalar.cmpi .ne v54 c0_i32_25
  v55

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S128x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, false, true]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

class Facts₀ : Prop where
  shapeCasts_S16x64x1024_S1024x1024 : S16x64x1024.ShapeCasts S1024x1024
  transposes_S1024x1024_S1024x1024_1_0 : S1024x1024.Transposes [1, 0] S1024x1024
  bitsLt_bf16_f32 : FTy.bits .bf16 < FTy.bits .f32
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x128.size a ≤ S2x2048x1024.size a
  hwx3_0 : ∀ i : grid3.Coords, EltTy.bits .bf16 = 32 ∨ (Rect.block (s := S2x2048x1024) S1x256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x1024.size a
  hwx3_1 : ∀ i : grid3.Coords, EltTy.bits .bf16 = 32 ∨ (Rect.block (s := S2x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x1024.size a
  hwx3_2 : ∀ i : grid3.Coords, EltTy.bits .bf16 = 32 ∨ (Rect.block (s := S2x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x1024.size a ≤ S1024x1024.size a
  hwx3_3 : ∀ i : grid3.Coords, EltTy.bits .bf16 = 32 ∨ (Rect.block (s := S1024x1024) S128x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x256x1024.size a ≤ S2x2048x1024.size a
  hwx3_4 : ∀ i : grid3.Coords, EltTy.bits .f32 = 32 ∨ (Rect.block (s := S2x2048x1024) S1x256x1024.size (cc3_transform_4 i) (hinb3_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S1x256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S128x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20) S1x256x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S16x64x1024 : Shape := ⟨3, ![16, 64, 1024]⟩
abbrev S1024x1024 : Shape := ⟨2, ![1024, 1024]⟩
abbrev S16x64x2x2048 : Shape := ⟨4, ![16, 64, 2, 2048]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩

abbrev nBuf : Space → Nat
  | .hbm => 36
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S16x64x1024, .f32⟩
  | .hbm, ⟨4, _⟩ => ⟨S16x64x1024, .f32⟩
  | .hbm, ⟨5, _⟩ => ⟨S16x64x1024, .f32⟩
  | .hbm, ⟨6, _⟩ => ⟨S1024x1024, .f32⟩
  | .hbm, ⟨7, _⟩ => ⟨S16x64x2x2048, .f32⟩
  | .hbm, ⟨8, _⟩ => ⟨S2x16x2048x64, .f32⟩
  | .hbm, ⟨9, _⟩ => ⟨S16x64x2x2048, .f32⟩
  | .hbm, ⟨10, _⟩ => ⟨S2x16x2048x64, .f32⟩
  | .hbm, ⟨11, _⟩ => ⟨S16x64x2x2048, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S_, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | .hbm, ⟨33, _⟩ => ⟨S2x2048x16x64, .f32⟩
  | .hbm, ⟨34, _⟩ => ⟨S2x2048x1024, .f32⟩
  | .hbm, ⟨35, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  transposes_S16x64x2x2048_S2x16x2048x64_2_0_3_1 : S16x64x2x2048.Transposes [2, 0, 3, 1] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S16x64x1024_S2x2048x1024_S16x64x2x2048_2_2_01_01_n_n_wf : DotDims.WF S16x64x1024 S2x2048x1024 S16x64x2x2048 [2] [2] [0, 1] [0, 1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S16x64x1024_S2x2048x1024_S16x64x2x2048_2_2_01_01_n_n : DotDims S16x64x1024 S2x2048x1024 S16x64x2x2048 where
  lhsContracting := [2]
  rhsContracting := [2]
  lhsNonContracting := [0, 1]
  rhsNonContracting := [0, 1]
  lhsBatch := []
  rhsBatch := []
  wf := dot_S16x64x1024_S2x2048x1024_S16x64x2x2048_2_2_01_01_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KI.RegA0.lean ====
/- Projection call 0 (a [4096,1024] x [1024,1024] product in four row blocks of 1024): what one grid point leaves in
   its output block, and the pipeline's proof data over it, at the contents `V` the call is entered with. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S1024x1024 := Rect.unit (s := S1024x1024) ![0, 0] S1024x1024.size inb_S1024x1024_S1024x1024_0_0

/-- The output block after the body: the product of the row block `x0` with the weight block `x1`. -/
def out0_2 (x0 : Vec F S1024x1024 .f32) (x1 : Vec F S1024x1024 .bf16) : Vec F S1024x1024 .bf16 :=
  View.canon [⟨r0, k0_pay1 (View.ld x0 r0) (View.ld x1 r0)⟩]

/-- The proof data: the arrays as found; after the body each input's buffer at its block, the output's at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current buffer holds its block at every point, fetched there or not, for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise: it is fetched at the first point only, and where it is not its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

set_option maxHeartbeats 1000000 in
/-- The kernel body on whole memrefs, the inputs' at read contents `x0`, `x1` and the output's at anything, runs to the
    continuation holding the inputs' as they were and the output's at `out0_2 x0 x1`: the third load reads the output
    buffer's unknown contents and its value is used by nothing; the store then overwrites the whole buffer. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegA1.lean ====
/- Projection call 1 (a [4096,1024] x [1024,1024] product in four row blocks of 1024): what one grid point leaves in
   its output block, and the pipeline's proof data over it, at the contents `V` the call is entered with. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S1024x1024 := Rect.unit (s := S1024x1024) ![0, 0] S1024x1024.size inb_S1024x1024_S1024x1024_0_0

/-- The output block after the body: the product of the row block `x0` with the weight block `x1`. -/
def out1_2 (x0 : Vec F S1024x1024 .f32) (x1 : Vec F S1024x1024 .bf16) : Vec F S1024x1024 .bf16 :=
  View.canon [⟨r1, k1_pay1 (View.ld x0 r1) (View.ld x1 r1)⟩]

/-- The proof data: the arrays as found; after the body each input's buffer at its block, the output's at the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Input window 0's current buffer holds its block at every point, fetched there or not, for any proof data whose
    array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise: it is fetched at the first point only, and where it is not its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store tiles the output buffer, so it covers it. -/
theorem cover1_2 (p0 : Vec F S1024x1024 .bf16) (y : S1024x1024.Idx) :
    ∃ pc ∈ ([⟨r1, p0⟩] : List (View.Piece (Elt F) S1024x1024 .bf16)), y ∈ pc.1.set :=
  View.cover_of_tiled [⟨r1, p0⟩] S1024x1024.size (by rfl) y

set_option maxHeartbeats 1000000 in
/-- The kernel body on whole memrefs, the inputs' at read contents `x0`, `x1` and the output's at anything, runs to the
    continuation holding the inputs' as they were and the output's at `out1_2 x0 x1`: the third load reads the output
    buffer's unknown contents and its value is used by nothing; the store then overwrites the whole buffer. -/
theorem sound_kernel1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegA2.lean ====
/- Projection call 2 (a [4096,1024] x [1024,1024] product in four row blocks of 1024): what one grid point leaves in
   its output block, and the pipeline's proof data over it, at the contents `V` the call is entered with. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S1024x1024 := Rect.unit (s := S1024x1024) ![0, 0] S1024x1024.size inb_S1024x1024_S1024x1024_0_0

/-- The output block after the body: the product of the row block `x0` with the weight block `x1`. -/
def out2_2 (x0 : Vec F S1024x1024 .f32) (x1 : Vec F S1024x1024 .bf16) : Vec F S1024x1024 .bf16 :=
  View.canon [⟨r2, k2_pay1 (View.ld x0 r2) (View.ld x1 r2)⟩]

/-- The proof data: the arrays as found; after the body each input's buffer at its block, the output's at the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Input window 0's current buffer holds its block at every point, fetched there or not, for any proof data whose
    array is the entry contents' and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 likewise: it is fetched at the first point only, and where it is not its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store tiles the output buffer, so it covers it. -/
theorem cover2_2 (p0 : Vec F S1024x1024 .bf16) (y : S1024x1024.Idx) :
    ∃ pc ∈ ([⟨r2, p0⟩] : List (View.Piece (Elt F) S1024x1024 .bf16)), y ∈ pc.1.set :=
  View.cover_of_tiled [⟨r2, p0⟩] S1024x1024.size (by rfl) y

set_option maxHeartbeats 1000000 in
/-- The kernel body on whole memrefs, the inputs' at read contents `x0`, `x1` and the output's at anything, runs to the
    continuation holding the inputs' as they were and the output's at `out2_2 x0 x1`: the third load reads the output
    buffer's unknown contents and its value is used by nothing; the store then overwrites the whole buffer. -/
theorem sound_kernel2 (c : Dev nD) (E : Set ℕ) (i : grid2.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RegR.Runs.lean ====
/- The fused attention and output-projection call's body run on whole buffers, in each of its three control cases (the
   accumulator reset; carried; carried and the output block stored), the two conditions in closed form over the grid, and
   where the output window is idle. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The zero offsets of a rank-2 and of a rank-3 rectangle, as the constant function. -/
theorem hz2_3 : (![0, 0] : Fin 2 → Nat) = fun _ => 0 := funext fun a => by fin_cases a <;> rfl
theorem hz3_3 : (![0, 0, 0] : Fin 3 → Nat) = fun _ => 0 := funext fun a => by fin_cases a <;> rfl

/-- The body's first condition (the head-pair coordinate is 0: the accumulator is reset), from the grid coordinates. -/
abbrev cond3_0 (i : grid3.Coords) : Prop := (Scalar.cmpi .ne (Scalar.extui (Scalar.cmpi .eq (BitVec.ofNat 32 (i 2).val) 0#32)) 0#32) = 1#1
/-- The body's second condition (the head-pair coordinate is 7: the output block is stored). -/
abbrev cond3_1 (i : grid3.Coords) : Prop := k3_cond2 i = 1#1

/-- One point's contribution added to the accumulator `prev`, over the four input blocks. -/
abbrev stepOf3 (x0 : Vec F S1x256x128 .bf16) (x1 x2 : Vec F S1x2048x128 .bf16) (x3 : Vec F S128x1024 .bf16)
    (prev : Vec F S256x1024 .f32) : Vec F S256x1024 .f32 :=
  k3_pay1 (k3_pay7 x0 x1 x2) (k3_pay8 x2) (k3_pay9 x0 x1) x3 prev

set_option maxHeartbeats 1000000 in
/-- The body where the accumulator is carried and no output is stored: on whole memrefs, the input blocks at `x0 … x3`, the
    output's buffer at `xo`, the accumulator at `prev`, it runs to the same with the accumulator at the step over `prev`. -/
theorem run3_carry (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : ¬cond3_0 i) (hc1 : ¬cond3_1 i) (x0 : Vec F S1x256x128 .bf16) (x1 x2 : Vec F S1x2048x128 .bf16) (x3 : Vec F S128x1024 .bf16) (prev : Vec F S256x1024 .f32) (xo : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare prev
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (stepOf3 x0 x1 x2 x3 prev)) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

set_option maxHeartbeats 1000000 in
/-- The body where the accumulator is reset and no output is stored: the accumulator, at anything before, ends at the step
    over the zero accumulator. -/
theorem run3_reset (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : cond3_0 i) (hc1 : ¬cond3_1 i) (x0 : Vec F S1x256x128 .bf16) (x1 x2 : Vec F S1x2048x128 .bf16) (x3 : Vec F S128x1024 .bf16) (d : Vec F S256x1024 .f32) (xo : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare d
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (stepOf3 x0 x1 x2 x3 (k3_pay3 (F := F)))) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_cons_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

set_option maxHeartbeats 1000000 in
/-- The body where the accumulator is carried and the output block is stored: the accumulator ends at the step over `prev`,
    the output's buffer, at anything before, at that accumulator laid out as the output block. -/
theorem run3_out (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : ¬cond3_0 i) (hc1 : cond3_1 i) (x0 : Vec F S1x256x128 .bf16) (x1 x2 : Vec F S1x2048x128 .bf16) (x3 : Vec F S128x1024 .bf16) (prev : Vec F S256x1024 .f32) (d : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare d ∗ owns (c : Thread nD τ) arg8 fullShare prev
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k3_pay2 (stepOf3 x0 x1 x2 x3 prev)) ∗ owns (c : Thread nD τ) arg8 fullShare (stepOf3 x0 x1 x2 x3 prev)) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    rw [View.read_writes_eq_canon _ _ _ (fun y => ⟨_, List.Mem.head _, View.mem_set_unit_zero hz3_3 inb_S1x256x1024_S1x256x1024_0_0_0 y⟩), View.canon_unit_zero hz3_3]
    simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

/-! ## The conditions in closed form, and where the output window is idle -/

/-- The accumulator is reset at the points whose head-pair coordinate is 0. -/
theorem hcond3_0 : ∀ t : Fin cfg3.N, cond3_0 (grid3.coords t) ↔ t.val % 8 = 0 :=
  (by decide +kernel : ∀ t : Fin grid3.N, cond3_0 (grid3.coords t) ↔ t.val % 8 = 0)
/-- The output block is stored at the points whose head-pair coordinate is 7. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the output block is not stored the output window is idle and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where it is stored the window is live. -/
theorem liveAt3_4 : ∀ t : Fin cfg3.N, cond3_1 (grid3.coords t) → cfg3.idle 4 (grid3.coords t) = false := by decide +kernel

end Cert.KernelIdeal.Hand

end
-- ==== Proof.KI.RegR.lean ====
/- The fused attention and output-projection call (grid: batch 2, query tile 8, head pair 8): what one grid point adds to the
   accumulator carried in the scratch buffer, the accumulator after every point, and the pipeline's proof data over them, at
   the contents `V` the call is entered with. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«415008_j37847251812357_3_alg».proof.Proof.KI.RegR.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's step: the accumulator `prev` plus the head pair's attention output (from the query block `x0`, the key block
    `x1`, the value block `x2`) times the head pair's rows `x3` of the output weight. -/
def step3 (x0 : Vec F S1x256x128 .bf16) (x1 x2 : Vec F S1x2048x128 .bf16) (x3 : Vec F S128x1024 .bf16)
    (prev : Vec F S256x1024 .f32) : Vec F S256x1024 .f32 :=
  k3_pay1 (k3_pay7 x0 x1 x2) (k3_pay8 x2) (k3_pay9 x0 x1) x3 prev

/-- The step at point `t`'s blocks. -/
def stepAt3 (c : Dev nD) (t : Fin cfg3.N) (prev : Vec F S256x1024 .f32) : Vec F S256x1024 .f32 :=
  step3 (iblk3 V c 0 t) (iblk3 V c 1 t) (iblk3 V c 2 t) (iblk3 V c 3 t) prev

/-- The accumulator after point `n`: reset to zero where the head-pair coordinate is 0 (`n % 8 = 0`), else carried from the
    point before; then the point's step. -/
def accAt3 (c : Dev nD) : (n : ℕ) → n < cfg3.N → Vec F S256x1024 .f32
  | 0, hn => stepAt3 V c ⟨0, hn⟩ (k3_pay3 (F := F))
  | n + 1, hn => stepAt3 V c ⟨n + 1, hn⟩ (if (n + 1) % 8 = 0 then k3_pay3 (F := F) else accAt3 c n (Nat.lt_of_succ_lt hn))

theorem accAt3_reset (c : Dev nD) (t : Fin cfg3.N) (h : t.val % 8 = 0) :
    accAt3 V c t.val t.isLt = stepAt3 V c t (k3_pay3 (F := F)) := by
  obtain ⟨n, hn⟩ := t
  cases n with
  | zero => rfl
  | succ n => exact congrArg (stepAt3 V c ⟨n + 1, hn⟩) (if_pos h)

theorem accAt3_carry (c : Dev nD) (t : Fin cfg3.N) (h : ¬t.val % 8 = 0) :
    accAt3 V c t.val t.isLt = stepAt3 V c t (accAt3 V c (t.val - 1) (Nat.lt_of_le_of_lt (Nat.sub_le _ _) t.isLt)) := by
  obtain ⟨n, hn⟩ := t
  cases n with
  | zero => exact absurd (Nat.zero_mod _) h
  | succ n => exact congrArg (stepAt3 V c ⟨n + 1, hn⟩) (if_neg h)

/-- The scratch accumulator as a whole memref. -/
abbrev scM3 : Memref sig .tc .vmem S256x1024 .f32 := Memref.whole cc3_scratch0

/-- The scoped buffers that are neither a staging buffer of this call nor its scratch: the other calls' staging buffers. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The call's invariant before position `n`: before the first point what the launch hands over (every scoped buffer no window
    stages at anything, the generator register at some state); afterwards the same with the scratch at the accumulator the
    point before left. -/
def PhiS3 (c : Dev nD) : (n : ℕ) → n ≤ cfg3.N → sProp 𝕄
  | 0, _ => Pipeline.ΦA spec3 c
  | n + 1, hn => iprop(rest3 (F := F) c ∗ owns (c : Thread nD τ) scM3 fullShare (accAt3 V c n hn) ∗ (∃ r, prngReg c r))

/-- The proof data: the arrays as found; after the body each input's buffer at its block, the output's at the accumulator
    (stored there only where the head-pair coordinate is 7; elsewhere the window is idle and the entry is not consulted). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay2 (accAt3 V c t.val t.isLt) := by dsimp only [dat3]

/-- The invariant before the first point is what the launch hands over. -/
theorem Phi3_zero (c : Dev nD) : (dat3 V c).Φ 0 = Pipeline.ΦA spec3 c := rfl

/-! ## The invariant's forms -/

/-- Separating conjunction reassociated, as an equation. -/
theorem sepAssoc3 (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨H, H'⟩, H''⟩; isplitl [H]; · iexact H
      isplitl [H']; · iexact H'
      iexact H'')
    (show iprop(X ∗ Y ∗ Z) ⊢ iprop((X ∗ Y) ∗ Z) from by
      iintro ⟨H, H', H''⟩; isplitr [H'']; swap; · iexact H''
      isplitl [H]; · iexact H
      iexact H')

/-- What the launch hands over, with the scratch accumulator as a memref owned at some contents beside the other scoped
    buffers. -/
theorem PhiA3_eq (c : Dev nD) :
    (Pipeline.ΦA spec3 c : sProp 𝕄)
      = iprop(rest3 (F := F) c ∗ (∃ d, owns (c : Thread nD τ) scM3 fullShare d) ∗ (∃ r, prngReg c r)) := by
  unfold Pipeline.ΦA rest3; rw [scopedRest3_eq]; simp only [scM3, owns_whole, sepAssoc3]; try rfl

theorem PhiS3_zero (c : Dev nD) (n : ℕ) (h : n ≤ cfg3.N) (hz : n = 0) : PhiS3 V c n h = Pipeline.ΦA spec3 c := by
  subst hz; rfl

/-- After point `n`: the accumulator at that point's value. -/
theorem PhiS3_succ (c : Dev nD) (n : ℕ) (hn : n < cfg3.N) :
    PhiS3 V c (n + 1) hn = iprop(rest3 (F := F) c ∗ owns (c : Thread nD τ) scM3 fullShare (accAt3 V c n hn) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(rest3 (F := F) c ∗ owns (c : Thread nD τ) scM3 fullShare (accAt3 V c (n - 1) (by omega)) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- After the last point the invariant gives that back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨Hr, HS, Hg⟩
  isplitl [Hr]; · iexact Hr
  isplitl [HS]; · iexists _; iexact HS
  iexact Hg

/-! ## The input windows' buffers hold their blocks -/

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## The body obligation at a generic point -/

/-- Each window's current staging memref at point `t`, and its wholeness. -/
abbrev ms3_0 (t : Fin cfg3.N) : Memref sig .tc .vmem S1x256x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256x1024 .f32 := win3_4.stage (cfg3.slots t 4)
abbrev hs3_4 (t : Fin cfg3.N) : (ms3_4 t).IsWhole := hstage3_4 ((cfg3.slots t 4).cast nbuf3_4)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the point's position modulo 8 says which of the three cases
    it is in; the invariant hands the body the accumulator at what the point before left (at anything at the first point) and
    takes it back at this point's value; where the output block is not stored its buffer goes back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 128 := lt_of_lt_of_eq t.isLt (show cfg3.N = 128 from N_3)
  by_cases h0 : t.val % 8 = 0
  · have h1 : ¬cond3_1 (grid3.coords t) := fun h => by have := (hcond3_1 t).mp h; omega
    rw [Dat.leavesExact_idle (dat3 V c) 4 t (idleAt3_4 t h1) (noFlush3_4 t h1)]
    rw [accAt3_reset V c t h0]; unfold stepAt3 step3
    by_cases hz : t.val = 0
    · rw [PhiS3_castSucc V c t, PhiS3_zero V c _ _ hz, PhiA3_eq]
      iintro ⟨⟨Hr, ⟨%ds, HS⟩, Hg⟩, Ho, ⟨%d0, H0⟩, ⟨%d1, H1⟩, ⟨%d2, H2⟩, ⟨%d3, H3⟩, ⟨%d4, H4⟩⟩
      iapply (run3_reset c (grid3.coords t) _ (hs3_0 t) _ (hs3_1 t) _ (hs3_2 t) _ (hs3_3 t) _ (hs3_4 t) _ (Memref.isWhole_whole _) ((hcond3_0 t).mpr h0) h1 (iblk3 V c 0 t) (iblk3 V c 1 t) (iblk3 V c 2 t) (iblk3 V c 3 t) ds ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨Hr, HS, Hg⟩, Ho, ⟨%d0, H0⟩, ⟨%d1, H1⟩, ⟨%d2, H2⟩, ⟨%d3, H3⟩, ⟨%d4, H4⟩⟩
      iapply (run3_reset c (grid3.coords t) _ (hs3_0 t) _ (hs3_1 t) _ (hs3_2 t) _ (hs3_3 t) _ (hs3_4 t) _ (Memref.isWhole_whole _) ((hcond3_0 t).mpr h0) h1 (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hc0 : ¬cond3_0 (grid3.coords t) := fun h => h0 ((hcond3_0 t).mp h)
    have hz : t.val ≠ 0 := fun h => h0 (by rw [h])
    rw [accAt3_carry V c t h0]; unfold stepAt3 step3
    rw [PhiS3_castSucc V c t, PhiS3_pos V c _ _ hz]
    by_cases h1 : t.val % 8 = 7
    · rw [show (dat3 V c).leavesExact 4 t = owns (c : Thread nD τ) (ms3_4 t) fullShare ((dat3 V c).after 4 t) from by
        unfold Dat.leavesExact; rw [liveAt3_4 t ((hcond3_1 t).mpr h1)], after3_4]
      rw [accAt3_carry V c t h0]; unfold stepAt3 step3
      iintro ⟨⟨Hr, HS, Hg⟩, Ho, ⟨%d0, H0⟩, ⟨%d1, H1⟩, ⟨%d2, H2⟩, ⟨%d3, H3⟩, ⟨%d4, H4⟩⟩
      iapply (run3_out c (grid3.coords t) _ (hs3_0 t) _ (hs3_1 t) _ (hs3_2 t) _ (hs3_3 t) _ (hs3_4 t) _ (Memref.isWhole_whole _) hc0 ((hcond3_1 t).mpr h1) (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨Hr, HS, Hg⟩, Ho, ⟨%d0, H0⟩, ⟨%d1, H1⟩, ⟨%d2, H2⟩, ⟨%d3, H3⟩, ⟨%d4, H4⟩⟩
      iapply (run3_carry c (grid3.coords t) _ (hs3_0 t) _ (hs3_1 t) _ (hs3_2 t) _ (hs3_3 t) _ (hs3_4 t) _ (Memref.isWhole_whole _) hc0 hc1 (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Fold.lean ====
/- The buffers' contents between the items of the program: the launch memory, then each stretch of host operations applied,
   then each call's arrays at what its write-backs leave. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import proofs.«415008_j37847251812357_3_alg».proof.Proof.KI.RegA0
import proofs.«415008_j37847251812357_3_alg».proof.Proof.KI.RegA1
import proofs.«415008_j37847251812357_3_alg».proof.Proof.KI.RegA2
import proofs.«415008_j37847251812357_3_alg».proof.Proof.KI.RegR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first stretch of host operations (the weights flattened, transposed; the inputs flattened). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After call 0: its arrays at what its write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b

/-- After call 1: its arrays at what its write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b

/-- After call 2: its arrays at what its write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b

/-- After the second stretch of host operations (the three projections reshaped to [2, 2048, 1024]). -/
abbrev W5 (c : Dev nD) : Valuation τ sig (Elt F) := StableHlo.after hostOps3 (W4 m c)
abbrev V5 : (c : Dev nD) → (b : Ref sig .tc) → Buf (Elt F) ((c : Thread nD τ).loc b) := fun c b => W5 m c b

/-- After call 3: its arrays at what its write-backs leave, every other buffer as before it. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m c b

/-- The result buffer ends at what the last call's write-backs leave in its output window's array. -/
theorem W6_out (c : Dev nD) : W6 m c (Proc.devRef .tc main_v20) = (dat3 (V5 m) c).arrAt 4 cfg3.N :=
  W6_arr m c 4

/-- The prefetched tables' admissible contents: no call has a table. -/
abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V5 m) c

end Cert.KernelIdeal.Hand

end
-- ==== Proof.KI.Run.lean ====
/- The whole run of the program: its two stretches of host operations and its four calls as segments, each call entered from the
   buffers' contents before it and left at those after it; every weakly fair execution terminates with every unscoped buffer
   at the last contents. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import proofs.«415008_j37847251812357_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched: no host operation writes one, and no call has one among its windows' arrays -/

/-- No host operation and no call writes argument 0. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation and no call writes argument 1. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation and no call writes argument 2. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation and no call writes argument 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No host operation and no call writes argument 4. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No host operation and no call writes argument 5. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No host operation and no call writes argument 6. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## Each call's arrays at its exit, and the rest of the buffers -/

/-- At call 0's exit each of its arrays holds what the write-backs leave, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At call 1's exit each of its arrays holds what the write-backs leave, and every other buffer what it held at entry. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At call 2's exit each of its arrays holds what the write-backs leave, and every other buffer what it held at entry. -/
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At call 3's exit each of its arrays holds what the write-backs leave, and every other buffer what it held at entry. -/
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The thread state between the items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it leaves
    the buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps3_fresh : (hostOps3 : List (HloOp τ sig (Elt F))).Forall fun op => op.fresh = ∅ := by
  simp only [List.Forall]; repeat' constructor
/-- The last thread state without the dues: every unscoped buffer at the last contents `W6`, the generator register at some state. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 over the thread state: entered from every unscoped buffer at `W1`, left at `W2`. Its arrays are split out of
    the unscoped buffers and put back at the exit contents; the generator register goes into the call's invariant and comes
    back; nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split out of
    the unscoped buffers and put back at the exit contents; the generator register goes into the call's invariant and comes
    back; nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W3`, left at `W4`. Its arrays are split out of
    the unscoped buffers and put back at the exit contents; the generator register goes into the call's invariant and comes
    back; nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W5`, left at `W6`. Its arrays are split out of
    the unscoped buffers and put back at the exit contents; the generator register goes into the call's invariant and comes
    back; nothing is owed; the call has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero _ c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: the first stretch of host operations, calls 0, 1, 2, the second stretch, call 3. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .region (reg3 m) ]
/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting, and
    every final state holds every unscoped buffer at the last contents `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Hand

end
-- ==== Proof.K.RegA0.lean ====
/- Projection call 0 (a [4096,1024] x [1024,1024] product in four row blocks of 1024): what one grid point leaves in
   its output block, and the pipeline's proof data over it, at the contents `V` the call is entered with. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S1024x1024 := Rect.unit (s := S1024x1024) ![0, 0] S1024x1024.size inb_S1024x1024_S1024x1024_0_0

/-- The output block after the body: the product of the row block `x0` with the weight block `x1`. -/
def out0_2 (x0 : Vec F S1024x1024 .f32) (x1 : Vec F S1024x1024 .bf16) : Vec F S1024x1024 .bf16 :=
  View.canon [⟨r0, k0_pay1 (View.ld x0 r0) (View.ld x1 r0)⟩]

/-- The proof data: the arrays as found; after the body each input's buffer at its block, the output's at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current buffer holds its block at every point, fetched there or not, for any proof data whose
    array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 likewise: it is fetched at the first point only, and where it is not its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

set_option maxHeartbeats 1000000 in
/-- The kernel body on whole memrefs, the inputs' at read contents `x0`, `x1` and the output's at anything, runs to the
    continuation holding the inputs' as they were and the output's at `out0_2 x0 x1`: the third load reads the output
    buffer's unknown contents and its value is used by nothing; the store then overwrites the whole buffer. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.RegA1.lean ====
/- Projection call 1 (a [4096,1024] x [1024,1024] product in four row blocks of 1024): what one grid point leaves in
   its output block, and the pipeline's proof data over it, at the contents `V` the call is entered with. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S1024x1024 := Rect.unit (s := S1024x1024) ![0, 0] S1024x1024.size inb_S1024x1024_S1024x1024_0_0

/-- The output block after the body: the product of the row block `x0` with the weight block `x1`. -/
def out1_2 (x0 : Vec F S1024x1024 .f32) (x1 : Vec F S1024x1024 .bf16) : Vec F S1024x1024 .bf16 :=
  View.canon [⟨r1, k1_pay1 (View.ld x0 r1) (View.ld x1 r1)⟩]

/-- The proof data: the arrays as found; after the body each input's buffer at its block, the output's at the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Input window 0's current buffer holds its block at every point, fetched there or not, for any proof data whose
    array is the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 likewise: it is fetched at the first point only, and where it is not its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store tiles the output buffer, so it covers it. -/
theorem cover1_2 (p0 : Vec F S1024x1024 .bf16) (y : S1024x1024.Idx) :
    ∃ pc ∈ ([⟨r1, p0⟩] : List (View.Piece (Elt F) S1024x1024 .bf16)), y ∈ pc.1.set :=
  View.cover_of_tiled [⟨r1, p0⟩] S1024x1024.size (by rfl) y

set_option maxHeartbeats 1000000 in
/-- The kernel body on whole memrefs, the inputs' at read contents `x0`, `x1` and the output's at anything, runs to the
    continuation holding the inputs' as they were and the output's at `out1_2 x0 x1`: the third load reads the output
    buffer's unknown contents and its value is used by nothing; the store then overwrites the whole buffer. -/
theorem sound_kernel1 (c : Dev nD) (E : Set ℕ) (i : grid1.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegA2.lean ====
/- Projection call 2 (a [4096,1024] x [1024,1024] product in four row blocks of 1024): what one grid point leaves in
   its output block, and the pipeline's proof data over it, at the contents `V` the call is entered with. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S1024x1024 := Rect.unit (s := S1024x1024) ![0, 0] S1024x1024.size inb_S1024x1024_S1024x1024_0_0

/-- The output block after the body: the product of the row block `x0` with the weight block `x1`. -/
def out2_2 (x0 : Vec F S1024x1024 .f32) (x1 : Vec F S1024x1024 .bf16) : Vec F S1024x1024 .bf16 :=
  View.canon [⟨r2, k2_pay1 (View.ld x0 r2) (View.ld x1 r2)⟩]

/-- The proof data: the arrays as found; after the body each input's buffer at its block, the output's at the product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Input window 0's current buffer holds its block at every point, fetched there or not, for any proof data whose
    array is the entry contents' and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 likewise: it is fetched at the first point only, and where it is not its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one store tiles the output buffer, so it covers it. -/
theorem cover2_2 (p0 : Vec F S1024x1024 .bf16) (y : S1024x1024.Idx) :
    ∃ pc ∈ ([⟨r2, p0⟩] : List (View.Piece (Elt F) S1024x1024 .bf16)), y ∈ pc.1.set :=
  View.cover_of_tiled [⟨r2, p0⟩] S1024x1024.size (by rfl) y

set_option maxHeartbeats 1000000 in
/-- The kernel body on whole memrefs, the inputs' at read contents `x0`, `x1` and the output's at anything, runs to the
    continuation holding the inputs' as they were and the output's at `out2_2 x0 x1`: the third load reads the output
    buffer's unknown contents and its value is used by nothing; the store then overwrites the whole buffer. -/
theorem sound_kernel2 (c : Dev nD) (E : Set ℕ) (i : grid2.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RegR.Runs.lean ====
/- The fused attention and output-projection call's body run on whole buffers, in each of its three control cases (the
   accumulator reset; carried; carried and the output block stored), the two conditions in closed form over the grid, and
   where the output window is idle. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The zero offsets of a rank-2 and of a rank-3 rectangle, as the constant function. -/
theorem hz2_3 : (![0, 0] : Fin 2 → Nat) = fun _ => 0 := funext fun a => by fin_cases a <;> rfl
theorem hz3_3 : (![0, 0, 0] : Fin 3 → Nat) = fun _ => 0 := funext fun a => by fin_cases a <;> rfl

/-- The body's first condition (the head-pair coordinate is 0: the accumulator is reset), from the grid coordinates. -/
abbrev cond3_0 (i : grid3.Coords) : Prop := (Scalar.cmpi .ne (Scalar.extui (Scalar.cmpi .eq (BitVec.ofNat 32 (i 2).val) 0#32)) 0#32) = 1#1
/-- The body's second condition (the head-pair coordinate is 7: the output block is stored). -/
abbrev cond3_1 (i : grid3.Coords) : Prop := k3_cond2 i = 1#1

/-- One point's contribution added to the accumulator `prev`, over the four input blocks. -/
abbrev stepOf3 (x0 : Vec F S1x256x128 .bf16) (x1 x2 : Vec F S1x2048x128 .bf16) (x3 : Vec F S128x1024 .bf16)
    (prev : Vec F S256x1024 .f32) : Vec F S256x1024 .f32 :=
  k3_pay1 (k3_pay7 x0 x1 x2) (k3_pay8 x2) (k3_pay9 x0 x1) x3 prev

set_option maxHeartbeats 1000000 in
/-- The body where the accumulator is carried and no output is stored: on whole memrefs, the input blocks at `x0 … x3`, the
    output's buffer at `xo`, the accumulator at `prev`, it runs to the same with the accumulator at the step over `prev`. -/
theorem run3_carry (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : ¬cond3_0 i) (hc1 : ¬cond3_1 i) (x0 : Vec F S1x256x128 .bf16) (x1 x2 : Vec F S1x2048x128 .bf16) (x3 : Vec F S128x1024 .bf16) (prev : Vec F S256x1024 .f32) (xo : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare prev
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (stepOf3 x0 x1 x2 x3 prev)) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

set_option maxHeartbeats 1000000 in
/-- The body where the accumulator is reset and no output is stored: the accumulator, at anything before, ends at the step
    over the zero accumulator. -/
theorem run3_reset (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : cond3_0 i) (hc1 : ¬cond3_1 i) (x0 : Vec F S1x256x128 .bf16) (x1 x2 : Vec F S1x2048x128 .bf16) (x3 : Vec F S128x1024 .bf16) (d : Vec F S256x1024 .f32) (xo : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare d
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare (stepOf3 x0 x1 x2 x3 (k3_pay3 (F := F)))) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_cons_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

set_option maxHeartbeats 1000000 in
/-- The body where the accumulator is carried and the output block is stored: the accumulator ends at the step over `prev`,
    the output's buffer, at anything before, at that accumulator laid out as the output block. -/
theorem run3_out (c : Dev nD) (i : grid3.Coords) (arg3 : Memref sig .tc .vmem S1x256x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S128x1024 .bf16) (harg6 : arg6.IsWhole) (arg7 : Memref sig .tc .vmem S1x256x1024 .f32) (harg7 : arg7.IsWhole) (arg8 : Memref sig .tc .vmem S256x1024 .f32) (harg8 : arg8.IsWhole)
    (hc0 : ¬cond3_0 i) (hc1 : cond3_1 i) (x0 : Vec F S1x256x128 .bf16) (x1 x2 : Vec F S1x2048x128 .bf16) (x3 : Vec F S128x1024 .bf16) (prev : Vec F S256x1024 .f32) (d : Vec F S1x256x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare d ∗ owns (c : Thread nD τ) arg8 fullShare prev
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k3_pay2 (stepOf3 x0 x1 x2 x3 prev)) ∗ owns (c : Thread nD τ) arg8 fullShare (stepOf3 x0 x1 x2 x3 prev)) -∗ K ⟨⟩))
      ⊢ wp frame (wpE (defs₀ (F := F)) Variants.none c none) E (cc3__fused_attn_kernel i arg3 harg3 arg4 harg4 arg5 harg5 arg6 harg6 arg7 harg7 arg8 harg8) K := by
  simp only [cc3__fused_attn_kernel_eq_skeleton]; unfold cc3__fused_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    try sl_unfold_words
    rw [View.read_writes_eq_canon _ _ _ (fun y => ⟨_, List.Mem.head _, View.mem_set_unit_zero hz3_3 inb_S1x256x1024_S1x256x1024_0_0_0 y⟩), View.canon_unit_zero hz3_3]
    simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]
  iexists _; isplitr
  swap; · iexact HS
  ipureintro
  try sl_unfold_words
  rw [View.read_writes_eq_canon _ _ _ (fun y => ⟨_, List.Mem.head _, View.mem_set_unit_zero hz2_3 inb_S256x1024_S256x1024_0_0 y⟩), View.canon_unit_zero hz2_3]
  simp only [View.readAt_eq_ld, harg3.read_unread, harg4.read_unread, harg5.read_unread, harg6.read_unread, harg7.read_unread, harg8.read_unread, View.ld_unit_zero (S := S1x256x128) hz3_3, View.ld_unit_zero (S := S1x2048x128) hz3_3, View.ld_unit_zero (S := S128x1024) hz2_3, View.ld_unit_zero (S := S256x1024) hz2_3, View.ld_unit_zero (S := S1x256x1024) hz3_3, View.readCov_unit_zero (S := S256x1024) _ hz2_3]

/-! ## The conditions in closed form, and where the output window is idle -/

/-- The accumulator is reset at the points whose head-pair coordinate is 0. -/
theorem hcond3_0 : ∀ t : Fin cfg3.N, cond3_0 (grid3.coords t) ↔ t.val % 8 = 0 :=
  (by decide +kernel : ∀ t : Fin grid3.N, cond3_0 (grid3.coords t) ↔ t.val % 8 = 0)
/-- The output block is stored at the points whose head-pair coordinate is 7. -/
theorem hcond3_1 : ∀ t : Fin cfg3.N, cond3_1 (grid3.coords t) ↔ t.val % 8 = 7 :=
  (by decide +kernel : ∀ t : Fin grid3.N, cond3_1 (grid3.coords t) ↔ t.val % 8 = 7)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Where the output block is not stored the output window is idle and is not written back. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- Where it is stored the window is live. -/
theorem liveAt3_4 : ∀ t : Fin cfg3.N, cond3_1 (grid3.coords t) → cfg3.idle 4 (grid3.coords t) = false := by decide +kernel

end Cert.Kernel.Hand

end
-- ==== Proof.K.RegR.lean ====
/- The fused attention and output-projection call (grid: batch 2, query tile 8, head pair 8): what one grid point adds to the
   accumulator carried in the scratch buffer, the accumulator after every point, and the pipeline's proof data over them, at
   the contents `V` the call is entered with. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«415008_j37847251812357_3_alg».proof.Proof.K.RegR.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- One point's step: the accumulator `prev` plus the head pair's attention output (from the query block `x0`, the key block
    `x1`, the value block `x2`) times the head pair's rows `x3` of the output weight. -/
def step3 (x0 : Vec F S1x256x128 .bf16) (x1 x2 : Vec F S1x2048x128 .bf16) (x3 : Vec F S128x1024 .bf16)
    (prev : Vec F S256x1024 .f32) : Vec F S256x1024 .f32 :=
  k3_pay1 (k3_pay7 x0 x1 x2) (k3_pay8 x2) (k3_pay9 x0 x1) x3 prev

/-- The step at point `t`'s blocks. -/
def stepAt3 (c : Dev nD) (t : Fin cfg3.N) (prev : Vec F S256x1024 .f32) : Vec F S256x1024 .f32 :=
  step3 (iblk3 V c 0 t) (iblk3 V c 1 t) (iblk3 V c 2 t) (iblk3 V c 3 t) prev

/-- The accumulator after point `n`: reset to zero where the head-pair coordinate is 0 (`n % 8 = 0`), else carried from the
    point before; then the point's step. -/
def accAt3 (c : Dev nD) : (n : ℕ) → n < cfg3.N → Vec F S256x1024 .f32
  | 0, hn => stepAt3 V c ⟨0, hn⟩ (k3_pay3 (F := F))
  | n + 1, hn => stepAt3 V c ⟨n + 1, hn⟩ (if (n + 1) % 8 = 0 then k3_pay3 (F := F) else accAt3 c n (Nat.lt_of_succ_lt hn))

theorem accAt3_reset (c : Dev nD) (t : Fin cfg3.N) (h : t.val % 8 = 0) :
    accAt3 V c t.val t.isLt = stepAt3 V c t (k3_pay3 (F := F)) := by
  obtain ⟨n, hn⟩ := t
  cases n with
  | zero => rfl
  | succ n => exact congrArg (stepAt3 V c ⟨n + 1, hn⟩) (if_pos h)

theorem accAt3_carry (c : Dev nD) (t : Fin cfg3.N) (h : ¬t.val % 8 = 0) :
    accAt3 V c t.val t.isLt = stepAt3 V c t (accAt3 V c (t.val - 1) (Nat.lt_of_le_of_lt (Nat.sub_le _ _) t.isLt)) := by
  obtain ⟨n, hn⟩ := t
  cases n with
  | zero => exact absurd (Nat.zero_mod _) h
  | succ n => exact congrArg (stepAt3 V c ⟨n + 1, hn⟩) (if_neg h)

/-- The scratch accumulator as a whole memref. -/
abbrev scM3 : Memref sig .tc .vmem S256x1024 .f32 := Memref.whole cc3_scratch0

/-- The scoped buffers that are neither a staging buffer of this call nor its scratch: the other calls' staging buffers. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The call's invariant before position `n`: before the first point what the launch hands over (every scoped buffer no window
    stages at anything, the generator register at some state); afterwards the same with the scratch at the accumulator the
    point before left. -/
def PhiS3 (c : Dev nD) : (n : ℕ) → n ≤ cfg3.N → sProp 𝕄
  | 0, _ => Pipeline.ΦA spec3 c
  | n + 1, hn => iprop(rest3 (F := F) c ∗ owns (c : Thread nD τ) scM3 fullShare (accAt3 V c n hn) ∗ (∃ r, prngReg c r))

/-- The proof data: the arrays as found; after the body each input's buffer at its block, the output's at the accumulator
    (stored there only where the head-pair coordinate is 7; elsewhere the window is idle and the entry is not consulted). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay2 (accAt3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay2 (accAt3 V c t.val t.isLt) := by dsimp only [dat3]

/-- The invariant before the first point is what the launch hands over. -/
theorem Phi3_zero (c : Dev nD) : (dat3 V c).Φ 0 = Pipeline.ΦA spec3 c := rfl

/-! ## The invariant's forms -/

/-- Separating conjunction reassociated, as an equation. -/
theorem sepAssoc3 (X Y Z : sProp 𝕄) : iprop((X ∗ Y) ∗ Z) = iprop(X ∗ Y ∗ Z) :=
  BI.Entails.antisymm
    (show iprop((X ∗ Y) ∗ Z) ⊢ iprop(X ∗ Y ∗ Z) from by
      iintro ⟨⟨H, H'⟩, H''⟩; isplitl [H]; · iexact H
      isplitl [H']; · iexact H'
      iexact H'')
    (show iprop(X ∗ Y ∗ Z) ⊢ iprop((X ∗ Y) ∗ Z) from by
      iintro ⟨H, H', H''⟩; isplitr [H'']; swap; · iexact H''
      isplitl [H]; · iexact H
      iexact H')

/-- What the launch hands over, with the scratch accumulator as a memref owned at some contents beside the other scoped
    buffers. -/
theorem PhiA3_eq (c : Dev nD) :
    (Pipeline.ΦA spec3 c : sProp 𝕄)
      = iprop(rest3 (F := F) c ∗ (∃ d, owns (c : Thread nD τ) scM3 fullShare d) ∗ (∃ r, prngReg c r)) := by
  unfold Pipeline.ΦA rest3; rw [scopedRest3_eq]; simp only [scM3, owns_whole, sepAssoc3]; try rfl

theorem PhiS3_zero (c : Dev nD) (n : ℕ) (h : n ≤ cfg3.N) (hz : n = 0) : PhiS3 V c n h = Pipeline.ΦA spec3 c := by
  subst hz; rfl

/-- After point `n`: the accumulator at that point's value. -/
theorem PhiS3_succ (c : Dev nD) (n : ℕ) (hn : n < cfg3.N) :
    PhiS3 V c (n + 1) hn = iprop(rest3 (F := F) c ∗ owns (c : Thread nD τ) scM3 fullShare (accAt3 V c n hn) ∗ (∃ r, prngReg c r)) := rfl

/-- Before a point that is not the first: the accumulator at what the point before left. -/
theorem PhiS3_pos (c : Dev nD) (n : ℕ) (h : n ≤ cfg3.N) (hz : n ≠ 0) :
    PhiS3 V c n h = iprop(rest3 (F := F) c ∗ owns (c : Thread nD τ) scM3 fullShare (accAt3 V c (n - 1) (by omega)) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- After the last point the invariant gives that back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨Hr, HS, Hg⟩
  isplitl [Hr]; · iexact Hr
  isplitl [HS]; · iexists _; iexact HS
  iexact Hg

/-! ## The input windows' buffers hold their blocks -/

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## The body obligation at a generic point -/

/-- Each window's current staging memref at point `t`, and its wholeness. -/
abbrev ms3_0 (t : Fin cfg3.N) : Memref sig .tc .vmem S1x256x128 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x2048x128 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x2048x128 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256x1024 .f32 := win3_4.stage (cfg3.slots t 4)
abbrev hs3_4 (t : Fin cfg3.N) : (ms3_4 t).IsWhole := hstage3_4 ((cfg3.slots t 4).cast nbuf3_4)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the point's position modulo 8 says which of the three cases
    it is in; the invariant hands the body the accumulator at what the point before left (at anything at the first point) and
    takes it back at this point's value; where the output block is not stored its buffer goes back untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  have hN : t.val < 128 := lt_of_lt_of_eq t.isLt (show cfg3.N = 128 from N_3)
  by_cases h0 : t.val % 8 = 0
  · have h1 : ¬cond3_1 (grid3.coords t) := fun h => by have := (hcond3_1 t).mp h; omega
    rw [Dat.leavesExact_idle (dat3 V c) 4 t (idleAt3_4 t h1) (noFlush3_4 t h1)]
    rw [accAt3_reset V c t h0]; unfold stepAt3 step3
    by_cases hz : t.val = 0
    · rw [PhiS3_castSucc V c t, PhiS3_zero V c _ _ hz, PhiA3_eq]
      iintro ⟨⟨Hr, ⟨%ds, HS⟩, Hg⟩, Ho, ⟨%d0, H0⟩, ⟨%d1, H1⟩, ⟨%d2, H2⟩, ⟨%d3, H3⟩, ⟨%d4, H4⟩⟩
      iapply (run3_reset c (grid3.coords t) _ (hs3_0 t) _ (hs3_1 t) _ (hs3_2 t) _ (hs3_3 t) _ (hs3_4 t) _ (Memref.isWhole_whole _) ((hcond3_0 t).mpr h0) h1 (iblk3 V c 0 t) (iblk3 V c 1 t) (iblk3 V c 2 t) (iblk3 V c 3 t) ds ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS3_castSucc V c t, PhiS3_pos V c _ _ hz]
      iintro ⟨⟨Hr, HS, Hg⟩, Ho, ⟨%d0, H0⟩, ⟨%d1, H1⟩, ⟨%d2, H2⟩, ⟨%d3, H3⟩, ⟨%d4, H4⟩⟩
      iapply (run3_reset c (grid3.coords t) _ (hs3_0 t) _ (hs3_1 t) _ (hs3_2 t) _ (hs3_3 t) _ (hs3_4 t) _ (Memref.isWhole_whole _) ((hcond3_0 t).mpr h0) h1 (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hc0 : ¬cond3_0 (grid3.coords t) := fun h => h0 ((hcond3_0 t).mp h)
    have hz : t.val ≠ 0 := fun h => h0 (by rw [h])
    rw [accAt3_carry V c t h0]; unfold stepAt3 step3
    rw [PhiS3_castSucc V c t, PhiS3_pos V c _ _ hz]
    by_cases h1 : t.val % 8 = 7
    · rw [show (dat3 V c).leavesExact 4 t = owns (c : Thread nD τ) (ms3_4 t) fullShare ((dat3 V c).after 4 t) from by
        unfold Dat.leavesExact; rw [liveAt3_4 t ((hcond3_1 t).mpr h1)], after3_4]
      rw [accAt3_carry V c t h0]; unfold stepAt3 step3
      iintro ⟨⟨Hr, HS, Hg⟩, Ho, ⟨%d0, H0⟩, ⟨%d1, H1⟩, ⟨%d2, H2⟩, ⟨%d3, H3⟩, ⟨%d4, H4⟩⟩
      iapply (run3_out c (grid3.coords t) _ (hs3_0 t) _ (hs3_1 t) _ (hs3_2 t) _ (hs3_3 t) _ (hs3_4 t) _ (Memref.isWhole_whole _) hc0 ((hcond3_1 t).mpr h1) (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexact H4
    · have hc1 : ¬cond3_1 (grid3.coords t) := fun h => h1 ((hcond3_1 t).mp h)
      rw [Dat.leavesExact_idle (dat3 V c) 4 t (idleAt3_4 t hc1) (noFlush3_4 t hc1)]
      iintro ⟨⟨Hr, HS, Hg⟩, Ho, ⟨%d0, H0⟩, ⟨%d1, H1⟩, ⟨%d2, H2⟩, ⟨%d3, H3⟩, ⟨%d4, H4⟩⟩
      iapply (run3_carry c (grid3.coords t) _ (hs3_0 t) _ (hs3_1 t) _ (hs3_2 t) _ (hs3_3 t) _ (hs3_4 t) _ (Memref.isWhole_whole _) hc0 hc1 (iblk3 V c 0 t) (iblk3 V c 1 t) (iblk3 V c 2 t) (iblk3 V c 3 t) (accAt3 V c (t.val - 1) (Nat.lt_of_le_of_lt (Nat.sub_le _ _) t.isLt)) ((dat3 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Fold.lean ====
/- The buffers' contents between the items of the program: the launch memory, then each stretch of host operations applied,
   then each call's arrays at what its write-backs leave. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import proofs.«415008_j37847251812357_3_alg».proof.Proof.K.RegA0
import proofs.«415008_j37847251812357_3_alg».proof.Proof.K.RegA1
import proofs.«415008_j37847251812357_3_alg».proof.Proof.K.RegA2
import proofs.«415008_j37847251812357_3_alg».proof.Proof.K.RegR
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first stretch of host operations (the weights flattened, transposed; the inputs flattened). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- After call 0: its arrays at what its write-backs leave, every other buffer as before it. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b

/-- After call 1: its arrays at what its write-backs leave, every other buffer as before it. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m c b

/-- After call 2: its arrays at what its write-backs leave, every other buffer as before it. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m c b

/-- After the second stretch of host operations (the three projections reshaped to [2, 2048, 1024]). -/
abbrev W5 (c : Dev nD) : Valuation τ sig (Elt F) := StableHlo.after hostOps3 (W4 m c)
abbrev V5 : (c : Dev nD) → (b : Ref sig .tc) → Buf (Elt F) ((c : Thread nD τ).loc b) := fun c b => W5 m c b

/-- After call 3: its arrays at what its write-backs leave, every other buffer as before it. -/
def W6 (c : Dev nD) : Valuation τ sig (Elt F) :=
  Pipeline.withArrays spec3 c (W5 m c) fun w => (dat3 (V5 m) c).arrAt w cfg3.N
theorem W6_arr (c : Dev nD) (w : Fin cfg3.W) :
    W6 m c (Proc.devRef .tc (Pipeline.arrRef spec3 w)) = (dat3 (V5 m) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- The same read at the TensorCore's references. -/
abbrev V6 : (c : Dev nD) → (b : Ref sig .tc) → Buf (Elt F) ((c : Thread nD τ).loc b) := fun c b => W6 m c b

/-- The result buffer ends at what the last call's write-backs leave in its output window's array. -/
theorem W6_out (c : Dev nD) : W6 m c (Proc.devRef .tc main_v20) = (dat3 (V5 m) c).arrAt 4 cfg3.N :=
  W6_arr m c 4

/-- The prefetched tables' admissible contents: no call has a table. -/
abbrev adm : (p : Fin 4) → (pcfgs (F := F) p).Adm := fun p => (cfgs p).toPCfg_adm
/-- Every call's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V5 m) c

end Cert.Kernel.Hand

end
-- ==== Proof.K.Run.lean ====
/- The whole run of the program: its two stretches of host operations and its four calls as segments, each call entered from the
   buffers' contents before it and left at those after it; every weakly fair execution terminates with every unscoped buffer
   at the last contents. -/
import proofs.«415008_j37847251812357_3_alg».proof.Proof.Gen.Kernel.Launch
import proofs.«415008_j37847251812357_3_alg».proof.Proof.Gen.Kernel.Skeleton
import proofs.«415008_j37847251812357_3_alg».proof.Proof.Gen.Kernel.Points
import proofs.«415008_j37847251812357_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched: no host operation writes one, and no call has one among its windows' arrays -/

/-- No host operation and no call writes argument 0. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation and no call writes argument 1. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation and no call writes argument 2. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation and no call writes argument 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No host operation and no call writes argument 4. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No host operation and no call writes argument 5. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_forall_not_mem (b := Proc.devRef .tc main_arg5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No host operation and no call writes argument 6. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## Each call's arrays at its exit, and the rest of the buffers -/

/-- At call 0's exit each of its arrays holds what the write-backs leave, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At call 1's exit each of its arrays holds what the write-backs leave, and every other buffer what it held at entry. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At call 2's exit each of its arrays holds what the write-backs leave, and every other buffer what it held at entry. -/
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- At call 3's exit each of its arrays holds what the write-backs leave, and every other buffer what it held at entry. -/
theorem hF3 (c : Dev nD) (w : Fin cfg3.W) : (dat3 (V5 m) c).arrAt w cfg3.N = V6 m c (Pipeline.arrRef spec3 w) :=
  (W6_arr m c w).symm
theorem hrest3 (c : Dev nD) : ∀ b, b ∉ Finset.univ.image (Pipeline.arrRef spec3) → V6 m c b = V5 m c b :=
  fun b hb => W6_of_ne m c b fun w e => hb (Finset.mem_image.mpr ⟨w, Finset.mem_univ _, e⟩)

/-! ## The thread state between the items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it leaves
    the buffers at the stretch applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the second stretch allocates a buffer. -/
theorem hostOps3_fresh : (hostOps3 : List (HloOp τ sig (Elt F))).Forall fun op => op.fresh = ∅ := by
  simp only [List.Forall]; repeat' constructor
/-- The last thread state without the dues: every unscoped buffer at the last contents `W6`, the generator register at some state. -/
abbrev Tₙ (c : Dev nD) : sProp 𝕄 := iprop(StableHlo.held (c : Thread nD τ) (Pipeline.ucRefs τ sig) (W6 m c) ∗ ∃ r, prngReg c r)

/-! ## The calls as segments -/

set_option backward.isDefEq.respectTransparency.types false in
/-- Call 0 over the thread state: entered from every unscoped buffer at `W1`, left at `W2`. Its arrays are split out of
    the unscoped buffers and put back at the exit contents; the generator register goes into the call's invariant and comes
    back; nothing is owed; the call has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W2`, left at `W3`. Its arrays are split out of
    the unscoped buffers and put back at the exit contents; the generator register goes into the call's invariant and comes
    back; nothing is owed; the call has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W3`, left at `W4`. Its arrays are split out of
    the unscoped buffers and put back at the exit contents; the generator register goes into the call's invariant and comes
    back; nothing is owed; the call has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W5`, left at `W6`. Its arrays are split out of
    the unscoped buffers and put back at the exit contents; the generator register goes into the call's invariant and comes
    back; nothing is owed; the call has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi3_zero _ c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V5 m c) (V6 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order: the first stretch of host operations, calls 0, 1, 2, the second stretch, call 3. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .region (reg3 m) ]
/-- The program is the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting, and
    every final state holds every unscoped buffer at the last contents `W6`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Hand

end
-- ==== Proof.Val.Dot.lean ====
/- The block product of the projection calls read at an index: entry (p, q) of the product of two [1024,1024] blocks
   into the zero accumulator is the sum over d of the left block at (p, d) times the right block at (d, q). -/
import proofs.«415008_j37847251812357_3_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Val

open Cert.KernelIdeal Idealize.ShloMosaic Idealize.ShloMosaic.ValueIdx
open scoped BigOperators

/-- The zero offsets of a whole-block access. -/
theorem hz : (![0, 0] : Fin 2 → Nat) = fun _ => 0 := funext fun a => by fin_cases a <;> rfl

theorem mm_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of a [4096,1024] array with a [1024,1024] array, entry by entry. -/
def prodArr (A : S4096x1024.Idx → EReal) (B : S1024x1024.Idx → EReal) : S4096x1024.Idx → EReal :=
  fun i => ∑ d : Fin 1024, A (ix2 (i 0) d) * B (ix2 d (i 1))

theorem prodArr_apply (A : S4096x1024.Idx → EReal) (B : S1024x1024.Idx → EReal) (r : Fin 4096) (q : Fin 1024) :
    prodArr A B (ix2 r q) = ∑ d : Fin 1024, A (ix2 r d) * B (ix2 d q) := rfl

/-- Entry (p, q) of the block product into the zero accumulator. -/
theorem mm_apply (a b : FVec Ideal S1024x1024 .bf16) (p q : Fin 1024) :
    FloatOps.matmul dot_S1024x1024_S1024x1024_S1024x1024_1_0_0_1_n_n none a b (constant (F := Ideal) S1024x1024 .f32 0x00000000#32) (ix2 p q)
      = ∑ d : Fin 1024, a (ix2 p d) * b (ix2 d q) := by
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

end Cert.KernelIdeal.Val

end
-- ==== Proof.Val.ValA0.lean ====
/- Projection call 0 read as one formula: the [4096,1024] output array after the call is the product of the row array
   with the weight array as the call finds them. Point t of the grid writes rows 1024 t … 1024 t + 1023; its block is
   the product of the row block at those rows with the whole weight block. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import proofs.«415008_j37847251812357_3_alg».proof.Proof.KI.RegA0
import proofs.«415008_j37847251812357_3_alg».proof.Proof.Val.Dot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The body's payload at an entry: the format changes are the identity on extended reals, the casts are to the same
    shape, what is left is the block product into the zero accumulator. -/
theorem pay0_apply (x0 : Vec Ideal S1024x1024 .f32) (x1 : Vec Ideal S1024x1024 .bf16) (p q : Fin 1024) :
    k0_pay1 (F := Ideal) x0 x1 (ix2 p q) = ∑ d : Fin 1024, x0 (ix2 p d) * x1 (ix2 d q) := by
  unfold k0_pay1
  refine (mm_apply _ _ p q).trans ?_
  refine Finset.sum_congr rfl fun d _ => ?_
  rw [shapeCast_self, shapeCast_self]
  rfl

/-- A block product whose row block is rows n·1024 … of `A` and whose weight block is `B` is the product array at those rows. -/
theorem block_prod0 (A : S4096x1024.Idx → EReal) (B : S1024x1024.Idx → EReal)
    (x0 : Vec Ideal S1024x1024 .f32) (x1 : Vec Ideal S1024x1024 .bf16) (n : Nat) (hn : n < 4)
    (h0 : ∀ p d : Fin 1024, x0 (ix2 p d) = A (ix2 (⟨n * 1024 + p.val, by have := p.isLt; omega⟩ : Fin 4096) d))
    (h1 : ∀ d q : Fin 1024, x1 (ix2 d q) = B (ix2 d q)) (p q : Fin 1024) :
    k0_pay1 (F := Ideal) x0 x1 (ix2 p q) = prodArr A B (ix2 (⟨n * 1024 + p.val, by have := p.isLt; omega⟩ : Fin 4096) q) := by
  rw [pay0_apply, prodArr_apply]
  exact Finset.sum_congr rfl fun d _ => by rw [h0, h1]

/-- The printed index maps over the grid: the row window and the output window are at block (t, 0), the weight window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product array. -/
theorem flushed0_eq (c : Dev nD) (t : Fin cfg0.N) :
    (dat0 (F := Ideal) V c).flushed 2 t
      = ((cfg0.win 2).blk t).view.read (Elt Ideal) (prodArr (V c main_v11) (V c main_v4)) := by
  show (cfg0.win 2).cut (grid0.coords t) ((dat0 (F := Ideal) V c).after 2 t) = _
  rw [after0_2]
  unfold out0_2
  rw [View.canon_unit_zero hz]
  simp only [View.ld_unit_zero (S := S1024x1024) hz]
  obtain ⟨e00, e01, e10, e11, e20, e21⟩ := idx_facts0 t
  have ht : t.val < 4 := Nat.lt_of_lt_of_eq t.isLt (show cfg0.N = 4 from N_0)
  funext j
  have hj0 : (j 0).val < 1024 := (j 0).isLt
  have hj1 : (j 1).val < 1024 := (j 1).isLt
  have hx : (cfg0.win 2).xinj (grid0.coords t) j = ix2 (⟨(j 0).val, hj0⟩ : Fin 1024) (⟨(j 1).val, hj1⟩ : Fin 1024) :=
    funext fun a => by match a with | ⟨0, _⟩ => rfl | ⟨1, _⟩ => rfl
  show k0_pay1 (F := Ideal) (iblk0 V c 0 t) (iblk0 V c 1 t) ((cfg0.win 2).xinj (grid0.coords t) j) = _
  rw [hx]
  refine (block_prod0 (V c main_v11) (V c main_v4) (iblk0 V c 0 t) (iblk0 V c 1 t) t.val ht ?_ ?_ _ _).trans ?_
  · intro p d
    show V c main_v11 (((cfg0.win 0).blk t).view.emb (ix2 p d)) = _
    refine congrArg (V c main_v11) (funext fun a => Fin.ext ?_)
    match a with
    | ⟨0, _⟩ => show win0_0.index t (0 : Fin 2) * 1024 + 1 * p.val = t.val * 1024 + p.val; rw [e00]; omega
    | ⟨1, _⟩ => show win0_0.index t (1 : Fin 2) * 1024 + 1 * d.val = d.val; rw [e01]; omega
  · intro d q
    show V c main_v4 (((cfg0.win 1).blk t).view.emb (ix2 d q)) = _
    refine congrArg (V c main_v4) (funext fun a => Fin.ext ?_)
    match a with
    | ⟨0, _⟩ => show win0_1.index t (0 : Fin 2) * 1024 + 1 * d.val = d.val; rw [e10]; omega
    | ⟨1, _⟩ => show win0_1.index t (1 : Fin 2) * 1024 + 1 * q.val = q.val; rw [e11]; omega
  · show prodArr (V c main_v11) (V c main_v4) _ = prodArr (V c main_v11) (V c main_v4) (((cfg0.win 2).blk t).view.emb j)
    refine congrArg (prodArr (V c main_v11) (V c main_v4)) (funext fun a => Fin.ext ?_)
    match a with
    | ⟨0, _⟩ => show t.val * 1024 + (j 0).val = win0_2.index t (0 : Fin 2) * 1024 + 1 * (j 0).val; rw [e20]; omega
    | ⟨1, _⟩ => show (j 1).val = win0_2.index t (1 : Fin 2) * 1024 + 1 * (j 1).val; rw [e21]; omega

/-- An index of the array is in point `t`'s block iff each coordinate is in the block's range on its axis. -/
theorem mem_blk0 (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v14).slice (win0_2.rect t)).set ↔ _
  rw [View.set_slice_whole, Rect.mem_set_unit]
  exact Iff.rfl

/-- Every row is in the block of the point its number divided by 1024 names. -/
theorem cover0 (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 4 := N_0
  refine ⟨⟨(i 0).val / 1024, by rw [hN]; omega⟩, flush0_2 _, ?_⟩
  obtain ⟨e00, e01, e10, e11, e20, e21⟩ := idx_facts0 ⟨(i 0).val / 1024, by rw [hN]; omega⟩
  rw [mem_blk0]
  intro a
  match a with
  | ⟨0, _⟩ => show win0_2.index _ (0 : Fin 2) * 1024 ≤ (i 0).val ∧ (i 0).val < win0_2.index _ (0 : Fin 2) * 1024 + 1024; rw [e20]; show (i 0).val / 1024 * 1024 ≤ (i 0).val ∧ (i 0).val < (i 0).val / 1024 * 1024 + 1024; omega
  | ⟨1, _⟩ => show win0_2.index _ (1 : Fin 2) * 1024 ≤ (i 1).val ∧ (i 1).val < win0_2.index _ (1 : Fin 2) * 1024 + 1024; rw [e21]; omega

/-- The output array after the call is the product array. -/
theorem arr0 (c : Dev nD) : (dat0 (F := Ideal) V c).arrAt 2 cfg0.N = prodArr (V c main_v11) (V c main_v4) :=
  (dat0 (F := Ideal) V c).arrAt_eq_of_cover 2 (prodArr (V c main_v11) (V c main_v4)) (fun t _ => flushed0_eq V c t) (cover0)

end Cert.KernelIdeal.Val

end
-- ==== Proof.Val.ValA1.lean ====
/- Projection call 1 read as one formula: the [4096,1024] output array after the call is the product of the row array
   with the weight array as the call finds them. Point t of the grid writes rows 1024 t … 1024 t + 1023; its block is
   the product of the row block at those rows with the whole weight block. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import proofs.«415008_j37847251812357_3_alg».proof.Proof.KI.RegA1
import proofs.«415008_j37847251812357_3_alg».proof.Proof.Val.Dot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The body's payload at an entry: the format changes are the identity on extended reals, the casts are to the same
    shape, what is left is the block product into the zero accumulator. -/
theorem pay1_apply (x0 : Vec Ideal S1024x1024 .f32) (x1 : Vec Ideal S1024x1024 .bf16) (p q : Fin 1024) :
    k1_pay1 (F := Ideal) x0 x1 (ix2 p q) = ∑ d : Fin 1024, x0 (ix2 p d) * x1 (ix2 d q) := by
  unfold k1_pay1
  refine (mm_apply _ _ p q).trans ?_
  refine Finset.sum_congr rfl fun d _ => ?_
  rw [shapeCast_self, shapeCast_self]
  rfl

/-- A block product whose row block is rows n·1024 … of `A` and whose weight block is `B` is the product array at those rows. -/
theorem block_prod1 (A : S4096x1024.Idx → EReal) (B : S1024x1024.Idx → EReal)
    (x0 : Vec Ideal S1024x1024 .f32) (x1 : Vec Ideal S1024x1024 .bf16) (n : Nat) (hn : n < 4)
    (h0 : ∀ p d : Fin 1024, x0 (ix2 p d) = A (ix2 (⟨n * 1024 + p.val, by have := p.isLt; omega⟩ : Fin 4096) d))
    (h1 : ∀ d q : Fin 1024, x1 (ix2 d q) = B (ix2 d q)) (p q : Fin 1024) :
    k1_pay1 (F := Ideal) x0 x1 (ix2 p q) = prodArr A B (ix2 (⟨n * 1024 + p.val, by have := p.isLt; omega⟩ : Fin 4096) q) := by
  rw [pay1_apply, prodArr_apply]
  exact Finset.sum_congr rfl fun d _ => by rw [h0, h1]

/-- The printed index maps over the grid: the row window and the output window are at block (t, 0), the weight window at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product array. -/
theorem flushed1_eq (c : Dev nD) (t : Fin cfg1.N) :
    (dat1 (F := Ideal) V c).flushed 2 t
      = ((cfg1.win 2).blk t).view.read (Elt Ideal) (prodArr (V c main_v12) (V c main_v6)) := by
  show (cfg1.win 2).cut (grid1.coords t) ((dat1 (F := Ideal) V c).after 2 t) = _
  rw [after1_2]
  unfold out1_2
  rw [View.canon_unit_zero hz]
  simp only [View.ld_unit_zero (S := S1024x1024) hz]
  obtain ⟨e00, e01, e10, e11, e20, e21⟩ := idx_facts1 t
  have ht : t.val < 4 := Nat.lt_of_lt_of_eq t.isLt (show cfg1.N = 4 from N_1)
  funext j
  have hj0 : (j 0).val < 1024 := (j 0).isLt
  have hj1 : (j 1).val < 1024 := (j 1).isLt
  have hx : (cfg1.win 2).xinj (grid1.coords t) j = ix2 (⟨(j 0).val, hj0⟩ : Fin 1024) (⟨(j 1).val, hj1⟩ : Fin 1024) :=
    funext fun a => by match a with | ⟨0, _⟩ => rfl | ⟨1, _⟩ => rfl
  show k1_pay1 (F := Ideal) (iblk1 V c 0 t) (iblk1 V c 1 t) ((cfg1.win 2).xinj (grid1.coords t) j) = _
  rw [hx]
  refine (block_prod1 (V c main_v12) (V c main_v6) (iblk1 V c 0 t) (iblk1 V c 1 t) t.val ht ?_ ?_ _ _).trans ?_
  · intro p d
    show V c main_v12 (((cfg1.win 0).blk t).view.emb (ix2 p d)) = _
    refine congrArg (V c main_v12) (funext fun a => Fin.ext ?_)
    match a with
    | ⟨0, _⟩ => show win1_0.index t (0 : Fin 2) * 1024 + 1 * p.val = t.val * 1024 + p.val; rw [e00]; omega
    | ⟨1, _⟩ => show win1_0.index t (1 : Fin 2) * 1024 + 1 * d.val = d.val; rw [e01]; omega
  · intro d q
    show V c main_v6 (((cfg1.win 1).blk t).view.emb (ix2 d q)) = _
    refine congrArg (V c main_v6) (funext fun a => Fin.ext ?_)
    match a with
    | ⟨0, _⟩ => show win1_1.index t (0 : Fin 2) * 1024 + 1 * d.val = d.val; rw [e10]; omega
    | ⟨1, _⟩ => show win1_1.index t (1 : Fin 2) * 1024 + 1 * q.val = q.val; rw [e11]; omega
  · show prodArr (V c main_v12) (V c main_v6) _ = prodArr (V c main_v12) (V c main_v6) (((cfg1.win 2).blk t).view.emb j)
    refine congrArg (prodArr (V c main_v12) (V c main_v6)) (funext fun a => Fin.ext ?_)
    match a with
    | ⟨0, _⟩ => show t.val * 1024 + (j 0).val = win1_2.index t (0 : Fin 2) * 1024 + 1 * (j 0).val; rw [e20]; omega
    | ⟨1, _⟩ => show (j 1).val = win1_2.index t (1 : Fin 2) * 1024 + 1 * (j 1).val; rw [e21]; omega

/-- An index of the array is in point `t`'s block iff each coordinate is in the block's range on its axis. -/
theorem mem_blk1 (t : Fin cfg1.N) (i : S4096x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v15).slice (win1_2.rect t)).set ↔ _
  rw [View.set_slice_whole, Rect.mem_set_unit]
  exact Iff.rfl

/-- Every row is in the block of the point its number divided by 1024 names. -/
theorem cover1 (i : S4096x1024.Idx) : ∃ t : Fin cfg1.N, (cfg1.win 2).flush t = true ∧ i ∈ ((cfg1.win 2).blk t).view.set := by
  have hi0 : (i 0).val < 4096 := (i 0).isLt
  have hi1 : (i 1).val < 1024 := (i 1).isLt
  have hN : cfg1.N = 4 := N_1
  refine ⟨⟨(i 0).val / 1024, by rw [hN]; omega⟩, flush1_2 _, ?_⟩
  obtain ⟨e00, e01, e10, e11, e20, e21⟩ := idx_facts1 ⟨(i 0).val / 1024, by rw [hN]; omega⟩
  rw [mem_blk1]
  intro a
  match a with
  | ⟨0, _⟩ => show win1_2.index _ (0 : Fin 2) * 1024 ≤ (i 0).val ∧ (i 0).val < win1_2.index _ (0 : Fin 2) * 1024 + 1024; rw [e20]; show (i 0).val / 1024 * 1024 ≤ (i 0).val ∧ (i 0).val < (i 0).val / 1024 * 1024 + 1024; omega
  | ⟨1, _⟩ => show win1_2.index _ (1 : Fin 2) * 1024 ≤ (i 1).val ∧ (i 1).val < win1_2.index _ (1 : Fin 2) * 1024 + 1024; rw [e21]; omega

/-- The output array after the call is the product array. -/
theorem arr1 (c : Dev nD) : (dat1 (F := Ideal) V c).arrAt 2 cfg1.N = prodArr (V c main_v12) (V c main_v6) :=
  (dat1 (F := Ideal) V c).arrAt_eq_of_cover 2 (prodArr (V c main_v12) (V c main_v6)) (fun t _ => flushed1_eq V c t) (cover1)

end Cert.KernelIdeal.Val

end
-- ==== Proof.Val.ValA2.lean ====
/- Projection call 2 read as one formula: the [4096,1024] output array after the call is the product of the row array
   with the weight array as the call finds them. Point t of the grid writes rows 1024 t … 1024 t + 1023; its block is
   the product of the row block at those rows with the whole weight block. -/
import proofs.«415008_j37847251812357_3_alg».proof.Proof.Gen.KernelIdeal.Launch
import proofs.«415008_j37847251812357_3_alg».proof.Proof.Gen.KernelIdeal.Skeleton
import proofs.«415008_j37847251812357_3_alg».proof.Proof.Gen.KernelIdeal.Points
import proofs.«415008_j37847251812357_3_alg».proof.Proof.KI.RegA2
import proofs.«415008_j37847251812357_3_alg».proof.Proof.Val.Dot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The body's payload at an entry: the format changes are the identity on extended reals, the casts are to the same
    shape, what is left is the block product into the zero accumulator. -/
theorem pay2_apply (x0 : Vec Ideal S1024x1024 .f32) (x1 : Vec Ideal S1024x1024 .bf16) (p q : Fin 1024) :
    k2_pay1 (F := Ideal) x0 x1 (ix2 p q) = ∑ d : Fin 1024, x0 (ix2 p d) * x1 (ix2 d q) := by
  unfold k2_pay1
  refine (mm_apply _ _ p q).trans ?_
  refine Finset.sum_congr rfl fun d _ => ?_
  rw [shapeCast_self, shapeCast_self]
  rfl

/-- A block product whose row block is rows n·1024 … of `A` and whose weight block is `B` is the product array at those rows. -/
theorem block_prod2 (A : S4096x1024.Idx → EReal) (B : S1024x1024.Idx → EReal)
    (x0 : Vec Ideal S1024x1024 .f32) (x1 : Vec Ideal S1024x1024 .bf16) (n : Nat) (hn : n < 4)
    (h0 : ∀ p d : Fin 1024, x0 (ix2 p d) = A (ix2 (⟨n * 1024 + p.val, by have := p.isLt; omega⟩ : Fin 4096) d))
    (h1 : ∀ d q : Fin 1024, x1 (ix2 d q) = B (ix2 d q)) (p q : Fin 1024) :
    k2_pay1 (F := Ideal) x0 x1 (ix2 p q) = prodArr A B (ix2 (⟨n * 1024 + p.val, by have := p.isLt; omega⟩ : Fin 4096) q) := by
  rw [pay2_apply, prodArr_apply]
  exact Finset.sum_congr rfl fun d _ => by rw [h0, h1]

/-- The printed index maps over the grid: the row window and the output window are at block (t, 0), the weight window at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product array. -/
theorem flushed2_eq (c : Dev nD) (t : Fin cfg2.N) :
    (dat2 (F := Ideal) V c).flushed 2 t
      = ((cfg2.win 2).blk t).view.read (Elt Ideal) (prodArr (V c main_v13) (V c main_v8)) := by
  show (cfg2.win 2).cut (grid2.coords t) ((dat2 (F := Ideal) V c).after 2 t) = _
  rw [after2_2]
  unfold out2_2
  rw [View.canon_unit_zero hz]
  simp only [View.ld_unit_zero (S := S1024x1024) hz]
  obtain ⟨e00, e01, e10, e11, e20, e21⟩ := idx_facts2 t
  have ht : t.val < 4 := Nat.lt_of_lt_of_eq t.isLt (show cfg2.N = 4 from N_2)
  funext j
  have hj0 : (j 0).val < 1024 := (j 0).isLt
  have hj1 : (j 1).val < 1024 := (j 1).isLt
  have hx : (cfg2.win 2).xinj (grid2.coords t) j = ix2 (⟨(j 0).val, hj0⟩ : Fin 1024) (⟨(j 1).val, hj1⟩ : Fin 1024) :=
    funext fun a => by match a with | ⟨0, _⟩ => rfl | ⟨1, _⟩ => rfl
  show k2_pay1 (F := Ideal) (iblk2 V c 0 t) (iblk2 V c 1 t) ((cfg2.win 2).xinj (grid2.coords t) j) = _
  rw [hx]
  refine (block_prod2 (V c main_v13) (V c main_v8) (iblk2 V c 0 t) (iblk2 V c 1 t) t.val ht ?_ ?_ _ _).trans ?_
  · intro p d
    show V c main_v13 (((cfg2.win 0).blk t).view.emb (ix2 p d)) = _
    refine congrArg (V c main_v13) (funext fun a => Fin.ext ?_)
    match a with
    | ⟨0, _⟩ => show win2_0.index t (0 : Fin 2) * 1024 + 1 * p.val = t.val * 1024 + p.val; rw [e00]; omega
    | ⟨1, _⟩ => show win2_0.index t (1 : Fin 2) * 1024 + 1 * d.val = d.val; rw [e01]; omega
  · intro d q
    show V c main_v8 (((cfg2.win 1).blk t).view.emb (ix2 d q)) = _
    refine congrArg (V c main_v8) (funext fun a => Fin.ext ?_)
    match a with
    | ⟨0, _⟩ => show win2_1.index t (0 : Fin 2) * 1024 + 1 * d.val = d.val; rw [e10]; omega
    | ⟨1, _⟩ => show win2_1.index t (1 : Fin 2) * 1024 + 1 * q.val = q.val; rw [e11]; omega
  · show prodArr (V c main_v13) (V c main_v8) _ = prodArr (V c main_v13) (V c main_v8) (((cfg2.win 2).blk t).view.emb j)
    refine congrArg (prodArr (V c main_v13) (V c main_v8)) (funext fun a => Fin.ext ?_)
    match a with
    | ⟨0, _⟩ => show t.val * 1024 + (j 0).val = win2_2.index t (0 : Fin 2) * 1024 + 1 * (j 0).val; rw [e20]; omega
    | ⟨1, _⟩ => show (j 1).val = win2_2.index t (1 : Fin 2) * 1024 + 1 * (j 1).val; rw [e21]; omega

/-- An index of the array is in point `t`'s block iff each coordinate is in the block's range on its axis. -/
theorem mem_blk2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v16).slice (win2_2.rect t)).set ↔ _
  rw [View.set_slice_whole, Rect.mem_set_unit]
  exact Iff.rfl

/-- Every row is in the block of the point its number divided by 1024 names. -/
theorem cover2 (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have hN : cfg2.N = 4 := N_2
  refine ⟨⟨(i 0).val / 1024, by rw [hN]; omega⟩, flush2_2 _, ?_⟩
  obtain ⟨e00, e01, e10, e11, e20, e21⟩ := idx_facts2 ⟨(i 0).val / 1024, by rw [hN]; omega⟩
  rw [mem_blk2]
  intro a
  match a with
  | ⟨0, _⟩ => show win2_2.index _ (0 : Fin 2) * 1024 ≤ (i 0).val ∧ (i 0).val < win2_2.index _ (0 : Fin 2) * 1024 + 1024; rw [e20]; show (i 0).val / 1024 * 1024 ≤ (i 0).val ∧ (i 0).val < (i 0).val / 1024 * 1024 + 1024; omega
  | ⟨1, _⟩ => show win2_2.index _ (1 : Fin 2) * 1024 ≤ (i 1).val ∧ (i 1).val < win2_2.index _ (1 : Fin 2) * 1024 + 1024; rw [e21]; omega

/-- The output array after the call is the product array. -/
theorem arr2 (c : Dev nD) : (dat2 (F := Ideal) V c).arrAt 2 cfg2.N = prodArr (V c main_v13) (V c main_v8) :=
  (dat2 (F := Ideal) V c).arrAt_eq_of_cover 2 (prodArr (V c main_v13) (V c main_v8)) (fun t _ => flushed2_eq V c t) (cover2)

end Cert.KernelIdeal.Val

end
-- ==== Proof.Val.Host.lean ====
/- The host operations around the projection calls, read at an index: the inputs flattened to [4096,1024] (row r is
   (b, s) = (r / 2048, r % 2048)), the per-head weights flattened to [1024,1024] (row n is (h, e) = (n / 64, n % 64)) and
   transposed, the output weight transposed, and the projections unflattened to [2,2048,1024]. A format change is the
   identity on extended reals. Then the contents of each buffer the calls read or write, between the program's items. -/
import proofs.«415008_j37847251812357_3_alg».proof.Proof.KI.Fold
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open scoped BigOperators

/-! ## The layout operations at an index -/

/-- Flattening [2,2048,1024] to [4096,1024]: row b·2048 + s is (b, s). -/
theorem flatten_x_apply (x : S2x2048x1024.Idx → EReal) (r : Fin 4096) (d : Fin 1024) (b : Fin 2) (s : Fin 2048)
    (hr : r.val = b.val * 2048 + s.val) :
    shapeCast S4096x1024 x shapeCasts_S2x2048x1024_S4096x1024 (ix2 r d) = x (ix3 b s d) := by
  refine shapeCast_apply x _ (ix2 r d) (ix3 b s d) ?_
  rw [Shape.rowMajor_val_three, Shape.rowMajor_val_two]
  show (b.val * 2048 + s.val) * 1024 + d.val = r.val * 1024 + d.val
  rw [hr]

/-- Unflattening [4096,1024] to [2,2048,1024]: (b, s) is row b·2048 + s. -/
theorem unflatten_apply (y : S4096x1024.Idx → EReal) (b : Fin 2) (s : Fin 2048) (d : Fin 1024) (r : Fin 4096)
    (hr : r.val = b.val * 2048 + s.val) :
    shapeCast S2x2048x1024 y shapeCasts_S4096x1024_S2x2048x1024 (ix3 b s d) = y (ix2 r d) := by
  refine shapeCast_apply y _ (ix3 b s d) (ix2 r d) ?_
  rw [Shape.rowMajor_val_three, Shape.rowMajor_val_two]
  show r.val * 1024 + d.val = (b.val * 2048 + s.val) * 1024 + d.val
  rw [hr]

/-- Flattening the per-head weights [16,64,1024] to [1024,1024]: row h·64 + e is (h, e). -/
theorem flatten_w_apply (w : S16x64x1024.Idx → EReal) (n d : Fin 1024) (h : Fin 16) (e : Fin 64)
    (hn : n.val = h.val * 64 + e.val) :
    shapeCast S1024x1024 w shapeCasts_S16x64x1024_S1024x1024 (ix2 n d) = w (ix3 h e d) := by
  refine shapeCast_apply w _ (ix2 n d) (ix3 h e d) ?_
  rw [Shape.rowMajor_val_three, Shape.rowMajor_val_two]
  show (h.val * 64 + e.val) * 1024 + d.val = n.val * 1024 + d.val
  rw [hn]

/-- Transposing a [1024,1024] array: entry (p, q) is the operand's (q, p). -/
theorem transpose_sq_apply (x : S1024x1024.Idx → EReal) (p q : Fin 1024) :
    transpose S1024x1024 [1, 0] x transposes_S1024x1024_S1024x1024_1_0 (ix2 p q) = x (ix2 q p) := by
  refine transpose_apply [1, 0] x _ (ix2 p q) (ix2 q p) fun b => ?_
  match b with
  | ⟨0, _⟩ => rfl
  | ⟨1, _⟩ => rfl

/-- A per-head weight as its call reads it: flattened, transposed, its format changed: entry (d, n) is the weight's (h, e, d). -/
theorem wT_apply (w : S16x64x1024.Idx → EReal) (d n : Fin 1024) (h : Fin 16) (e : Fin 64) (hn : n.val = h.val * 64 + e.val) :
    (truncf .bf16 (transpose S1024x1024 [1, 0] (shapeCast S1024x1024 w shapeCasts_S16x64x1024_S1024x1024) transposes_S1024x1024_S1024x1024_1_0 : FVec Ideal S1024x1024 .f32) bitsLt_bf16_f32 : FVec Ideal S1024x1024 .bf16) (ix2 d n)
      = w (ix3 h e d) := by
  show transpose S1024x1024 [1, 0] (shapeCast S1024x1024 w shapeCasts_S16x64x1024_S1024x1024) transposes_S1024x1024_S1024x1024_1_0 (ix2 d n) = _
  rw [transpose_sq_apply]
  exact flatten_w_apply w n d h e hn

/-- The output weight as the last call reads it: transposed, its format changed. -/
theorem woT_apply (wo : S1024x1024.Idx → EReal) (d o : Fin 1024) :
    (truncf .bf16 (transpose S1024x1024 [1, 0] wo transposes_S1024x1024_S1024x1024_1_0 : FVec Ideal S1024x1024 .f32) bitsLt_bf16_f32 : FVec Ideal S1024x1024 .bf16) (ix2 d o)
      = wo (ix2 o d) := by
  show transpose S1024x1024 [1, 0] wo transposes_S1024x1024_S1024x1024_1_0 (ix2 d o) = _
  exact transpose_sq_apply wo d o

/-! ## The buffers between the program's items -/

variable (m : (ℓ : Loc nD τ sig) → Buf (Elt Ideal) ℓ) (c : Dev nD)

/-- After the first stretch the three row arrays are the inputs flattened, -/
theorem V1_rows0 : (V1 m c main_v11 : S4096x1024.Idx → EReal)
    = shapeCast S4096x1024 (m ((c : Thread nD τ).loc main_arg0)) shapeCasts_S2x2048x1024_S4096x1024 := by
  dsimp only [V1, W1, W0, hostOps0]; after_results; rfl
theorem V1_rows1 : (V1 m c main_v12 : S4096x1024.Idx → EReal)
    = shapeCast S4096x1024 (m ((c : Thread nD τ).loc main_arg1)) shapeCasts_S2x2048x1024_S4096x1024 := by
  dsimp only [V1, W1, W0, hostOps0]; after_results; rfl
theorem V1_rows2 : (V1 m c main_v13 : S4096x1024.Idx → EReal)
    = shapeCast S4096x1024 (m ((c : Thread nD τ).loc main_arg2)) shapeCasts_S2x2048x1024_S4096x1024 := by
  dsimp only [V1, W1, W0, hostOps0]; after_results; rfl

/-- the three weight arrays the per-head weights flattened, transposed, their format changed, -/
theorem V1_wt0 : (V1 m c main_v4 : S1024x1024.Idx → EReal)
    = (truncf .bf16 (transpose S1024x1024 [1, 0] (shapeCast S1024x1024 (m ((c : Thread nD τ).loc main_arg3)) shapeCasts_S16x64x1024_S1024x1024) transposes_S1024x1024_S1024x1024_1_0 : FVec Ideal S1024x1024 .f32) bitsLt_bf16_f32 : FVec Ideal S1024x1024 .bf16) := by
  dsimp only [V1, W1, W0, hostOps0]; after_results; rfl
theorem V1_wt1 : (V1 m c main_v6 : S1024x1024.Idx → EReal)
    = (truncf .bf16 (transpose S1024x1024 [1, 0] (shapeCast S1024x1024 (m ((c : Thread nD τ).loc main_arg4)) shapeCasts_S16x64x1024_S1024x1024) transposes_S1024x1024_S1024x1024_1_0 : FVec Ideal S1024x1024 .f32) bitsLt_bf16_f32 : FVec Ideal S1024x1024 .bf16) := by
  dsimp only [V1, W1, W0, hostOps0]; after_results; rfl
theorem V1_wt2 : (V1 m c main_v8 : S1024x1024.Idx → EReal)
    = (truncf .bf16 (transpose S1024x1024 [1, 0] (shapeCast S1024x1024 (m ((c : Thread nD τ).loc main_arg5)) shapeCasts_S16x64x1024_S1024x1024) transposes_S1024x1024_S1024x1024_1_0 : FVec Ideal S1024x1024 .f32) bitsLt_bf16_f32 : FVec Ideal S1024x1024 .bf16) := by
  dsimp only [V1, W1, W0, hostOps0]; after_results; rfl

/-- and the output weight's array the output weight transposed, its format changed. -/
theorem V1_wo : (V1 m c main_v10 : S1024x1024.Idx → EReal)
    = (truncf .bf16 (transpose S1024x1024 [1, 0] (m ((c : Thread nD τ).loc main_arg6)) transposes_S1024x1024_S1024x1024_1_0 : FVec Ideal S1024x1024 .f32) bitsLt_bf16_f32 : FVec Ideal S1024x1024 .bf16) := by
  dsimp only [V1, W1, W0, hostOps0]; after_results

/-- No call writes another call's operands: each is as the first stretch left it when its call is entered. -/
theorem V2_rows1 : V2 m c main_v12 = V1 m c main_v12 := W2_of_ne m c main_v12 (by decide)
theorem V2_wt1 : V2 m c main_v6 = V1 m c main_v6 := W2_of_ne m c main_v6 (by decide)
theorem V3_rows2 : V3 m c main_v13 = V1 m c main_v13 := (W3_of_ne m c main_v13 (by decide)).trans (W2_of_ne m c main_v13 (by decide))
theorem V3_wt2 : V3 m c main_v8 = V1 m c main_v8 := (W3_of_ne m c main_v8 (by decide)).trans (W2_of_ne m c main_v8 (by decide))
theorem V4_wo : V4 m c main_v10 = V1 m c main_v10 :=
  (W4_of_ne m c main_v10 (by decide)).trans ((W3_of_ne m c main_v10 (by decide)).trans (W2_of_ne m c main_v10 (by decide)))

/-- Nor a later call an earlier call's output. -/
theorem V4_out0 : V4 m c main_v14 = V2 m c main_v14 := (W4_of_ne m c main_v14 (by decide)).trans (W3_of_ne m c main_v14 (by decide))
theorem V4_out1 : V4 m c main_v15 = V3 m c main_v15 := W4_of_ne m c main_v15 (by decide)

/-- The second stretch unflattens the three outputs and touches nothing else. -/
theorem V5_out0 : (V5 m c main_v17 : S2x2048x1024.Idx → EReal)
    = shapeCast S2x2048x1024 (V4 m c main_v14 : S4096x1024.Idx → EReal) shapeCasts_S4096x1024_S2x2048x1024 := by
  dsimp only [V5, W5, hostOps3]; after_results; rfl
theorem V5_out1 : (V5 m c main_v18 : S2x2048x1024.Idx → EReal)
    = shapeCast S2x2048x1024 (V4 m c main_v15 : S4096x1024.Idx → EReal) shapeCasts_S4096x1024_S2x2048x1024 := by
  dsimp only [V5, W5, hostOps3]; after_results; rfl
theorem V5_out2 : (V5 m c main_v19 : S2x2048x1024.Idx → EReal)
    = shapeCast S2x2048x1024 (V4 m c main_v16 : S4096x1024.Idx → EReal) shapeCasts_S4096x1024_S2x2048x1024 := by
  dsimp only [V5, W5, hostOps3]; after_results; rfl
theorem V5_wo_eq : V5 m c main_v10 = V4 m c main_v10 := by
  dsimp only [V5, W5, hostOps3]; after_results

end Cert.KernelIdeal.Val

end
-- ==== Proof.Spec.lean ====
/- The two programs' results as formulas of the argument arrays, over the extended reals.
   Arguments: three inputs x[b, s, d] (2 x 2048 x 1024), three per-head weights w[h, e, d] (16 x 64 x 1024), the output weight
   wo[o, d] (1024 x 1024). A projection is proj x w b s h e = sum_d x[b,s,d] * w[h,e,d]; a raw score is
   qk b h s t = sum_e q[b,s,h,e] * k[b,t,h,e]. The kernel scales the score by the word 1/8, exponentiates against the row's
   maximum, contracts with v and divides by the row's sum afterwards; the reference divides the score by sqrt 64,
   normalises the exponentials first and contracts with v afterwards. Both then contract the heads' outputs, laid side by
   side (feature d = 64 h + e), with wo[o, d]: the kernel head pair by head pair (128 features at a time, 8 pairs), the
   reference over all 1024 features at once. -/
import Idealize.ShloMosaic.PureOps.Ideal
import Idealize.ShloMosaic.Lib.ValueIdx

noncomputable section

namespace Cert.Spec

open Idealize.ShloMosaic Idealize.ShloMosaic.ValueIdx
open scoped BigOperators

abbrev X3 : Type := (⟨3, ![2, 2048, 1024]⟩ : Shape).Idx → EReal
abbrev WH : Type := (⟨3, ![16, 64, 1024]⟩ : Shape).Idx → EReal
abbrev WO : Type := (⟨2, ![1024, 1024]⟩ : Shape).Idx → EReal

/-- Row (b, s) of `x` against row (h, e) of `w`. -/
def proj (x : X3) (w : WH) (b : Fin 2) (s : Fin 2048) (h : Fin 16) (e : Fin 64) : EReal :=
  ∑ d : Fin 1024, x (ix3 b s d) * w (ix3 h e d)

/-- The raw score of query row `s` against key row `t` in head `h`. -/
def qk (xq xk : X3) (wq wk : WH) (b : Fin 2) (h : Fin 16) (s t : Fin 2048) : EReal :=
  ∑ e : Fin 64, proj xq wq b s h e * proj xk wk b t h e

/-- A row's maximum, from the bottom element. -/
def rowmax (f : Fin 2048 → EReal) : EReal := (Finset.univ : Finset (Fin 2048)).fold max ⊥ f

/-- The exponential of a score against its row's maximum. -/
def pexp (sc : Fin 2048 → EReal) (t : Fin 2048) : EReal := Ideal.exp (sc t - rowmax sc)

/-- The kernel's scores: times the word 1/8. -/
def scK (xq xk : X3) (wq wk : WH) (b : Fin 2) (h : Fin 16) (s : Fin 2048) : Fin 2048 → EReal :=
  fun t => qk xq xk wq wk b h s t * Ideal.ofBits .f32 0x3E000000#32

/-- The reference's scores: divided by the square root of the word 64. -/
def scR (xq xk : X3) (wq wk : WH) (b : Fin 2) (h : Fin 16) (s : Fin 2048) : Fin 2048 → EReal :=
  fun t => Ideal.div (qk xq xk wq wk b h s t) (Ideal.sqrt (Ideal.ofBits .f32 0x42800000#32))

/-- The kernel's head output: contract first, divide by the row's sum afterwards. -/
def headK (xq xk xv : X3) (wq wk wv : WH) (b : Fin 2) (h : Fin 16) (s : Fin 2048) (e : Fin 64) : EReal :=
  Ideal.div (∑ t : Fin 2048, pexp (scK xq xk wq wk b h s) t * proj xv wv b t h e)
    (∑ t : Fin 2048, pexp (scK xq xk wq wk b h s) t)

/-- The reference's head output: normalise first, contract afterwards. -/
def headR (xq xk xv : X3) (wq wk wv : WH) (b : Fin 2) (h : Fin 16) (s : Fin 2048) (e : Fin 64) : EReal :=
  ∑ t : Fin 2048, Ideal.div (pexp (scR xq xk wq wk b h s) t) (∑ t' : Fin 2048, pexp (scR xq xk wq wk b h s) t')
    * proj xv wv b t h e

/-- Feature `d`'s head and its position inside the head. -/
def hd (d : Fin 1024) : Fin 16 := ⟨d.val / 64, by have := d.isLt; omega⟩
def ft (d : Fin 1024) : Fin 64 := ⟨d.val % 64, by omega⟩
/-- Feature `j` of head pair `p`. -/
def pj (p : Fin 8) (j : Fin 128) : Fin 1024 := ⟨p.val * 128 + j.val, by have := p.isLt; have := j.isLt; omega⟩

/-- The kernel's result: the head pairs' contributions, each a contraction over its 128 features. -/
def outK (xq xk xv : X3) (wq wk wv : WH) (wo : WO) (b : Fin 2) (s : Fin 2048) (o : Fin 1024) : EReal :=
  ∑ p : Fin 8, ∑ j : Fin 128, headK xq xk xv wq wk wv b (hd (pj p j)) s (ft (pj p j)) * wo (ix2 o (pj p j))

/-- The reference's result: one contraction over the 1024 features. -/
def outR (xq xk xv : X3) (wq wk wv : WH) (wo : WO) (b : Fin 2) (s : Fin 2048) (o : Fin 1024) : EReal :=
  ∑ d : Fin 1024, headR xq xk xv wq wk wv b (hd d) s (ft d) * wo (ix2 o d)

/-! ## The kernel's last call over already projected arrays

The kernel projects first (three calls) and lays the heads' projections side by side: feature `fe h e = 64 h + e` of a
[2, 2048, 1024] array. Its last call computes from those arrays `Q`, `K`, `Vv` and the transposed output weight. -/

/-- Feature `e` of head `h`. -/
def fe (h : Fin 16) (e : Fin 64) : Fin 1024 := ⟨h.val * 64 + e.val, by have := h.isLt; have := e.isLt; omega⟩

theorem hd_fe (h : Fin 16) (e : Fin 64) : hd (fe h e) = h := by
  apply Fin.ext; have := e.isLt; simp only [hd, fe]; omega
theorem ft_fe (h : Fin 16) (e : Fin 64) : ft (fe h e) = e := by
  apply Fin.ext; have := e.isLt; simp only [ft, fe]; omega
theorem fe_hd_ft (d : Fin 1024) : fe (hd d) (ft d) = d := by
  apply Fin.ext; simp only [hd, ft, fe]; omega

/-- The projections of every head side by side. -/
def projAll (x : X3) (w : WH) : X3 := fun i => proj x w (i 0) (i 1) (hd (i 2)) (ft (i 2))

def qkP (Q K : X3) (b : Fin 2) (h : Fin 16) (s t : Fin 2048) : EReal :=
  ∑ e : Fin 64, Q (ix3 b s (fe h e)) * K (ix3 b t (fe h e))

def scKP (Q K : X3) (b : Fin 2) (h : Fin 16) (s : Fin 2048) : Fin 2048 → EReal :=
  fun t => qkP Q K b h s t * Ideal.ofBits .f32 0x3E000000#32

def headKP (Q K Vv : X3) (b : Fin 2) (h : Fin 16) (s : Fin 2048) (e : Fin 64) : EReal :=
  Ideal.div (∑ t : Fin 2048, pexp (scKP Q K b h s) t * Vv (ix3 b t (fe h e)))
    (∑ t : Fin 2048, pexp (scKP Q K b h s) t)

/-- The last call's result: `woT` is the output weight transposed, `woT[d, o]`. -/
def outKP (Q K Vv : X3) (woT : WO) (b : Fin 2) (s : Fin 2048) (o : Fin 1024) : EReal :=
  ∑ p : Fin 8, ∑ j : Fin 128, headKP Q K Vv b (hd (pj p j)) s (ft (pj p j)) * woT (ix2 (pj p j) o)

theorem qkP_projAll (xq xk : X3) (wq wk : WH) (b : Fin 2) (h : Fin 16) (s t : Fin 2048) :
    qkP (projAll xq wq) (projAll xk wk) b h s t = qk xq xk wq wk b h s t := by
  unfold qkP qk projAll
  refine Finset.sum_congr rfl fun e _ => ?_
  show proj xq wq b s (hd (fe h e)) (ft (fe h e)) * proj xk wk b t (hd (fe h e)) (ft (fe h e)) = _
  rw [hd_fe, ft_fe]

theorem headKP_projAll (xq xk xv : X3) (wq wk wv : WH) (b : Fin 2) (h : Fin 16) (s : Fin 2048) (e : Fin 64) :
    headKP (projAll xq wq) (projAll xk wk) (projAll xv wv) b h s e = headK xq xk xv wq wk wv b h s e := by
  have hsc : scKP (projAll xq wq) (projAll xk wk) b h s = scK xq xk wq wk b h s := by
    funext t; unfold scKP scK; rw [qkP_projAll]
  unfold headKP headK
  rw [hsc]
  congr 1
  refine Finset.sum_congr rfl fun t _ => ?_
  show _ * proj xv wv b t (hd (fe h e)) (ft (fe h e)) = _
  rw [hd_fe, ft_fe]

/-- Over the three projections and the transposed output weight the last call's result is the kernel's formula. -/
theorem outKP_projAll (xq xk xv : X3) (wq wk wv : WH) (wo : WO) (b : Fin 2) (s : Fin 2048) (o : Fin 1024) :
    outKP (projAll xq wq) (projAll xk wk) (projAll xv wv) (fun i => wo (ix2 (i 1) (i 0))) b s o
      = outK xq xk xv wq wk wv wo b s o := by
  unfold outKP outK
  refine Finset.sum_congr rfl fun p _ => Finset.sum_congr rfl fun j _ => ?_
  rw [headKP_projAll]

end Cert.Spec

end
-- ==== Proof.Val.ValA.lean ====
/- The arrays the last call is entered with, as formulas of the argument arrays: the three projection calls' outputs,
   unflattened, are the projections of every head side by side, and the output weight's array is the output weight transposed. -/
import proofs.«415008_j37847251812357_3_alg».proof.Proof.KI.Fold
import proofs.«415008_j37847251812357_3_alg».proof.Proof.Val.Dot
import proofs.«415008_j37847251812357_3_alg».proof.Proof.Val.ValA0
import proofs.«415008_j37847251812357_3_alg».proof.Proof.Val.ValA1
import proofs.«415008_j37847251812357_3_alg».proof.Proof.Val.ValA2
import proofs.«415008_j37847251812357_3_alg».proof.Proof.Val.Host
import proofs.«415008_j37847251812357_3_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe Idealize.SL.Sem Idealize.ShloMosaic.StableHlo
open scoped BigOperators

/-- The flattened input times the flattened, transposed per-head weight, unflattened, is the projection of every head
    side by side: row b·2048 + s of the product is input row (b, s), column n is weight row (n / 64, n % 64). -/
theorem proj_of_arrays (x : S2x2048x1024.Idx → EReal) (w : S16x64x1024.Idx → EReal)
    (A : S4096x1024.Idx → EReal) (B : S1024x1024.Idx → EReal)
    (hA : A = shapeCast S4096x1024 x shapeCasts_S2x2048x1024_S4096x1024)
    (hB : B = (truncf .bf16 (transpose S1024x1024 [1, 0] (shapeCast S1024x1024 w shapeCasts_S16x64x1024_S1024x1024) transposes_S1024x1024_S1024x1024_1_0 : FVec Ideal S1024x1024 .f32) bitsLt_bf16_f32 : FVec Ideal S1024x1024 .bf16)) :
    shapeCast S2x2048x1024 (prodArr A B) shapeCasts_S4096x1024_S2x2048x1024 = Cert.Spec.projAll x w := by
  funext i
  obtain ⟨b, s, d, rfl⟩ : ∃ (b : Fin 2) (s : Fin 2048) (d : Fin 1024), i = ix3 b s d := ⟨i 0, i 1, i 2, eq_ix3 i⟩
  rw [unflatten_apply (prodArr A B) b s d ⟨b.val * 2048 + s.val, by have := b.isLt; have := s.isLt; omega⟩ rfl, prodArr_apply]
  show _ = Cert.Spec.proj x w b s (Cert.Spec.hd d) (Cert.Spec.ft d)
  unfold Cert.Spec.proj
  refine Finset.sum_congr rfl fun e _ => ?_
  rw [hA, hB, flatten_x_apply x _ e b s rfl,
    wT_apply w e d (Cert.Spec.hd d) (Cert.Spec.ft d) (by show d.val = d.val / 64 * 64 + d.val % 64; omega)]

variable (m : (ℓ : Loc nD τ sig) → Buf (Elt Ideal) ℓ) (c : Dev nD)

/-- The first projection, as the last call finds it. -/
theorem V5_q : (V5 m c main_v17 : S2x2048x1024.Idx → EReal)
    = Cert.Spec.projAll (m ((c : Thread nD τ).loc main_arg0)) (m ((c : Thread nD τ).loc main_arg3)) := by
  have e : (V2 m c main_v14 : S4096x1024.Idx → EReal) = prodArr (V1 m c main_v11) (V1 m c main_v4) :=
    (W2_arr m c 2).trans (arr0 (V1 m) c)
  rw [V5_out0, V4_out0, e]
  exact proj_of_arrays _ _ _ _ (V1_rows0 m c) (V1_wt0 m c)

/-- The second. -/
theorem V5_k : (V5 m c main_v18 : S2x2048x1024.Idx → EReal)
    = Cert.Spec.projAll (m ((c : Thread nD τ).loc main_arg1)) (m ((c : Thread nD τ).loc main_arg4)) := by
  have e : (V3 m c main_v15 : S4096x1024.Idx → EReal) = prodArr (V2 m c main_v12) (V2 m c main_v6) :=
    (W3_arr m c 2).trans (arr1 (V2 m) c)
  rw [V5_out1, V4_out1, e, V2_rows1, V2_wt1]
  exact proj_of_arrays _ _ _ _ (V1_rows1 m c) (V1_wt1 m c)

/-- The third. -/
theorem V5_v : (V5 m c main_v19 : S2x2048x1024.Idx → EReal)
    = Cert.Spec.projAll (m ((c : Thread nD τ).loc main_arg2)) (m ((c : Thread nD τ).loc main_arg5)) := by
  have e : (V4 m c main_v16 : S4096x1024.Idx → EReal) = prodArr (V3 m c main_v13) (V3 m c main_v8) :=
    (W4_arr m c 2).trans (arr2 (V3 m) c)
  rw [V5_out2, e, V3_rows2, V3_wt2]
  exact proj_of_arrays _ _ _ _ (V1_rows2 m c) (V1_wt2 m c)

/-- The output weight's array, as the last call finds it: the output weight transposed. -/
theorem V5_wo : (V5 m c main_v10 : S1024x1024.Idx → EReal)
    = fun i => (m ((c : Thread nD τ).loc main_arg6)) (ix2 (i 1) (i 0)) := by
  rw [V5_wo_eq, V4_wo, V1_wo]
  funext i
  obtain ⟨d, o, rfl⟩ : ∃ (d o : Fin 1024), i = ix2 d o := ⟨i 0, i 1, eq_ix2 i⟩
  exact woT_apply _ d o

end Cert.KernelIdeal.Val

end
-- ==== Proof.StepSpec.lean ====
/- One grid point of the fused attention call, as a formula of its blocks: the query block `x0` [1, 256, 128], the key and value
   blocks `x1`, `x2` [1, 2048, 128] (128 lanes = two heads of 64 features) and the weight block `x3` [128, 1024]. Lane `j`
   belongs to head `j / 64` of the pair; its attention output at query row `r` is the exponentials of the scaled scores of that
   head against the row's maximum, contracted with the value lane and divided by the row's sum afterwards. -/
import proofs.«415008_j37847251812357_3_alg».proof.Proof.Spec

noncomputable section

namespace Cert.Spec

open Idealize.ShloMosaic Idealize.ShloMosaic.ValueIdx
open scoped BigOperators

abbrev BQ : Type := (⟨3, ![1, 256, 128]⟩ : Shape).Idx → EReal
abbrev BK : Type := (⟨3, ![1, 2048, 128]⟩ : Shape).Idx → EReal
abbrev BW : Type := (⟨2, ![128, 1024]⟩ : Shape).Idx → EReal

/-- Lane `e` of the head (of the pair) that lane `j` belongs to. -/
def lane (j : Fin 128) (e : Fin 64) : Fin 128 := ⟨j.val / 64 * 64 + e.val, by have := j.isLt; have := e.isLt; omega⟩

/-- The scaled scores of query row `r` in the head of lane `j`. -/
def scB (x0 : BQ) (x1 : BK) (r : Fin 256) (j : Fin 128) : Fin 2048 → EReal :=
  fun t => (∑ e : Fin 64, x0 (ix3 0 r (lane j e)) * x1 (ix3 0 t (lane j e))) * Ideal.ofBits .f32 0x3E000000#32

/-- The head pair's attention output at query row `r`, lane `j`. -/
def pairHead (x0 : BQ) (x1 x2 : BK) (r : Fin 256) (j : Fin 128) : EReal :=
  Ideal.div (∑ t : Fin 2048, pexp (scB x0 x1 r j) t * x2 (ix3 0 t j)) (∑ t : Fin 2048, pexp (scB x0 x1 r j) t)

/-- One point's contribution at row `r`, output feature `o`. -/
def contrib (x0 : BQ) (x1 x2 : BK) (x3 : BW) (r : Fin 256) (o : Fin 1024) : EReal :=
  ∑ j : Fin 128, pairHead x0 x1 x2 r j * x3 (ix2 j o)

/-! ## The blocks a grid point (b, qi, p) is handed, as parts of the whole arrays -/

/-- Row `r` of query tile `qi`. -/
def row (qi : Fin 8) (r : Fin 256) : Fin 2048 := ⟨qi.val * 256 + r.val, by have := qi.isLt; have := r.isLt; omega⟩

/-- The query block: rows of tile `qi`, lanes of head pair `p`, of batch `b`. -/
def blkQ (Q : X3) (b : Fin 2) (qi p : Fin 8) : BQ := fun y =>
  Q (ix3 b (row qi ⟨(y 1).val, (y 1).isLt⟩) (pj p ⟨(y 2).val, (y 2).isLt⟩))

/-- The key (or value) block: all rows, lanes of head pair `p`, of batch `b`. -/
def blkK (K : X3) (b : Fin 2) (p : Fin 8) : BK := fun y =>
  K (ix3 b ⟨(y 1).val, (y 1).isLt⟩ (pj p ⟨(y 2).val, (y 2).isLt⟩))

/-- The weight block: the rows of head pair `p` of the transposed output weight. -/
def blkW (woT : WO) (p : Fin 8) : BW := fun y =>
  woT (ix2 (pj p ⟨(y 0).val, (y 0).isLt⟩) ⟨(y 1).val, (y 1).isLt⟩)

end Cert.Spec

end
-- ==== Proof.Bridge.lean ====
/- The blocks a grid point of the fused attention call is handed are parts of the whole arrays: a point's contribution,
   written over its blocks, is the head pair's share of the last call's formula, and the eight shares add up to it. -/
import proofs.«415008_j37847251812357_3_alg».proof.Proof.StepSpec

noncomputable section

namespace Cert.Spec

open Idealize.ShloMosaic Idealize.ShloMosaic.ValueIdx
open scoped BigOperators

/-- Lane `lane j e` of head pair `p` is feature `e` of the head that feature `pj p j` belongs to
    (both are 128 p + 64 (j / 64) + e). -/
theorem pj_lane (p : Fin 8) (j : Fin 128) (e : Fin 64) : pj p (lane j e) = fe (hd (pj p j)) e := by
  apply Fin.ext
  have := p.isLt
  have := j.isLt
  have := e.isLt
  simp only [pj, lane, fe, hd]
  omega

/-- The query block at (0, r, l) is the array at row `r` of the tile, feature `l` of the pair. -/
theorem blkQ_apply (Q : X3) (b : Fin 2) (qi p : Fin 8) (r : Fin 256) (l : Fin 128) :
    blkQ Q b qi p (ix3 0 r l) = Q (ix3 b (row qi r) (pj p l)) := rfl

/-- The key (or value) block at (0, t, l) is the array at row `t`, feature `l` of the pair. -/
theorem blkK_apply (K : X3) (b : Fin 2) (p : Fin 8) (t : Fin 2048) (l : Fin 128) :
    blkK K b p (ix3 0 t l) = K (ix3 b t (pj p l)) := rfl

/-- The weight block at (j, o) is the transposed weight at feature `j` of the pair. -/
theorem blkW_apply (woT : WO) (p : Fin 8) (j : Fin 128) (o : Fin 1024) :
    blkW woT p (ix2 j o) = woT (ix2 (pj p j) o) := rfl

/-- The blocks' scaled scores in the head of lane `j` are the arrays' in the head of feature `pj p j`. -/
theorem scB_blocks (Q K : X3) (b : Fin 2) (qi p : Fin 8) (r : Fin 256) (j : Fin 128) :
    scB (blkQ Q b qi p) (blkK K b p) r j = scKP Q K b (hd (pj p j)) (row qi r) := by
  funext t
  unfold scB scKP qkP
  refine congrArg (· * Ideal.ofBits .f32 0x3E000000#32) (Finset.sum_congr rfl fun e _ => ?_)
  rw [blkQ_apply, blkK_apply, pj_lane]

/-- The head pair's output at lane `j` is the head output of feature `pj p j`. -/
theorem pairHead_blocks (Q K Vv : X3) (b : Fin 2) (qi p : Fin 8) (r : Fin 256) (j : Fin 128) :
    pairHead (blkQ Q b qi p) (blkK K b p) (blkK Vv b p) r j
      = headKP Q K Vv b (hd (pj p j)) (row qi r) (ft (pj p j)) := by
  unfold pairHead headKP
  rw [scB_blocks]
  refine congrArg (fun x => Ideal.div x _) (Finset.sum_congr rfl fun t _ => ?_)
  rw [blkK_apply, fe_hd_ft]

/-- A grid point's contribution is its head pair's share of the last call's formula. -/
theorem contrib_blocks (Q K Vv : X3) (woT : WO) (b : Fin 2) (qi p : Fin 8) (r : Fin 256) (o : Fin 1024) :
    contrib (blkQ Q b qi p) (blkK K b p) (blkK Vv b p) (blkW woT p) r o
      = ∑ j : Fin 128, headKP Q K Vv b (hd (pj p j)) (row qi r) (ft (pj p j)) * woT (ix2 (pj p j) o) := by
  unfold contrib
  refine Finset.sum_congr rfl fun j _ => ?_
  rw [pairHead_blocks, blkW_apply]

/-- The eight head pairs' contributions add up to the last call's formula. -/
theorem sum_contrib_blocks (Q K Vv : X3) (woT : WO) (b : Fin 2) (qi : Fin 8) (r : Fin 256) (o : Fin 1024) :
    ∑ p : Fin 8, contrib (blkQ Q b qi p) (blkK K b p) (blkK Vv b p) (blkW woT p) r o = outKP Q K Vv woT b (row qi r) o := by
  unfold outKP
  exact Finset.sum_congr rfl fun p _ => contrib_blocks Q K Vv woT b qi p r o

end Cert.Spec

end
-- ==== Proof.Val.Blocks.lean ====
/- The blocks a grid point of the fused attention call is handed, read off the whole arrays: point t = (b * 8 + qi) * 8 + p takes
   the query rows of tile qi of batch b, every key and value row of batch b, each at the 128 lanes of head pair p, and the 128
   rows of head pair p of the transposed output weight. -/
import proofs.«415008_j37847251812357_3_alg».proof.Proof.KI.RegR
import proofs.«415008_j37847251812357_3_alg».proof.Proof.StepSpec

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe

variable (V : (c : Dev nD) → (b : Ref sig .tc) → Buf (Elt Ideal) ((c : Thread nD τ).loc b))

/-- The batch, the query tile and the head pair of grid point `t`. -/
def tb (t : Fin cfg3.N) : Fin 2 := ⟨t.val / 64, by have h : t.val < 128 := lt_of_lt_of_eq t.isLt N_3; omega⟩
def tq (t : Fin cfg3.N) : Fin 8 := ⟨t.val / 8 % 8, by omega⟩
def tp (t : Fin cfg3.N) : Fin 8 := ⟨t.val % 8, by omega⟩

/-- The windows' block indices at every grid point: the query window moves with (b, qi, p), the key and value windows with
    (b, 0, p), the weight window with (p, 0). -/
theorem blockIdx : ∀ t : Fin cfg3.N,
    win3_0.index t (0 : Fin 3) = t.val / 64 ∧ win3_0.index t (1 : Fin 3) = t.val / 8 % 8 ∧ win3_0.index t (2 : Fin 3) = t.val % 8
    ∧ win3_1.index t (0 : Fin 3) = t.val / 64 ∧ win3_1.index t (1 : Fin 3) = 0 ∧ win3_1.index t (2 : Fin 3) = t.val % 8
    ∧ win3_2.index t (0 : Fin 3) = t.val / 64 ∧ win3_2.index t (1 : Fin 3) = 0 ∧ win3_2.index t (2 : Fin 3) = t.val % 8
    ∧ win3_3.index t (0 : Fin 2) = t.val % 8 ∧ win3_3.index t (1 : Fin 2) = 0 :=
  (by decide +kernel : ∀ t : Fin grid3.N, _)

/-- The query block at point `t`. -/
theorem iblk3_0 (c : Dev nD) (t : Fin cfg3.N) :
    (iblk3 (F := Ideal) V c 0 t : S1x256x128.Idx → EReal) = Cert.Spec.blkQ (V c main_v17) (tb t) (tq t) (tp t) := by
  obtain ⟨e0, e1, e2, -⟩ := blockIdx t
  funext y
  show V c main_v17 (((cfg3.win 0).blk t).view.emb y)
    = V c main_v17 (ix3 (tb t) (Cert.Spec.row (tq t) ⟨(y 1).val, (y 1).isLt⟩) (Cert.Spec.pj (tp t) ⟨(y 2).val, (y 2).isLt⟩))
  refine congrArg (V c main_v17) ?_
  funext a; apply Fin.ext
  match a with
  | ⟨0, _⟩ =>
    show win3_0.index t (0 : Fin 3) * 1 + 1 * (y 0).val = t.val / 64
    have hy : (y 0).val < 1 := (y 0).isLt
    omega
  | ⟨1, _⟩ =>
    show win3_0.index t (1 : Fin 3) * 256 + 1 * (y 1).val = t.val / 8 % 8 * 256 + (y 1).val
    omega
  | ⟨2, _⟩ =>
    show win3_0.index t (2 : Fin 3) * 128 + 1 * (y 2).val = t.val % 8 * 128 + (y 2).val
    omega

/-- The key block at point `t`. -/
theorem iblk3_1 (c : Dev nD) (t : Fin cfg3.N) :
    (iblk3 (F := Ideal) V c 1 t : S1x2048x128.Idx → EReal) = Cert.Spec.blkK (V c main_v18) (tb t) (tp t) := by
  obtain ⟨-, -, -, e0, e1, e2, -⟩ := blockIdx t
  funext y
  show V c main_v18 (((cfg3.win 1).blk t).view.emb y)
    = V c main_v18 (ix3 (tb t) ⟨(y 1).val, (y 1).isLt⟩ (Cert.Spec.pj (tp t) ⟨(y 2).val, (y 2).isLt⟩))
  refine congrArg (V c main_v18) ?_
  funext a; apply Fin.ext
  match a with
  | ⟨0, _⟩ =>
    show win3_1.index t (0 : Fin 3) * 1 + 1 * (y 0).val = t.val / 64
    have hy : (y 0).val < 1 := (y 0).isLt
    omega
  | ⟨1, _⟩ =>
    show win3_1.index t (1 : Fin 3) * 2048 + 1 * (y 1).val = (y 1).val
    omega
  | ⟨2, _⟩ =>
    show win3_1.index t (2 : Fin 3) * 128 + 1 * (y 2).val = t.val % 8 * 128 + (y 2).val
    omega

/-- The value block at point `t`. -/
theorem iblk3_2 (c : Dev nD) (t : Fin cfg3.N) :
    (iblk3 (F := Ideal) V c 2 t : S1x2048x128.Idx → EReal) = Cert.Spec.blkK (V c main_v19) (tb t) (tp t) := by
  obtain ⟨-, -, -, -, -, -, e0, e1, e2, -⟩ := blockIdx t
  funext y
  show V c main_v19 (((cfg3.win 2).blk t).view.emb y)
    = V c main_v19 (ix3 (tb t) ⟨(y 1).val, (y 1).isLt⟩ (Cert.Spec.pj (tp t) ⟨(y 2).val, (y 2).isLt⟩))
  refine congrArg (V c main_v19) ?_
  funext a; apply Fin.ext
  match a with
  | ⟨0, _⟩ =>
    show win3_2.index t (0 : Fin 3) * 1 + 1 * (y 0).val = t.val / 64
    have hy : (y 0).val < 1 := (y 0).isLt
    omega
  | ⟨1, _⟩ =>
    show win3_2.index t (1 : Fin 3) * 2048 + 1 * (y 1).val = (y 1).val
    omega
  | ⟨2, _⟩ =>
    show win3_2.index t (2 : Fin 3) * 128 + 1 * (y 2).val = t.val % 8 * 128 + (y 2).val
    omega

/-- The weight block at point `t`. -/
theorem iblk3_3 (c : Dev nD) (t : Fin cfg3.N) :
    (iblk3 (F := Ideal) V c 3 t : S128x1024.Idx → EReal) = Cert.Spec.blkW (V c main_v10) (tp t) := by
  obtain ⟨-, -, -, -, -, -, -, -, -, e0, e1⟩ := blockIdx t
  funext y
  show V c main_v10 (((cfg3.win 3).blk t).view.emb y)
    = V c main_v10 (ix2 (Cert.Spec.pj (tp t) ⟨(y 0).val, (y 0).isLt⟩) ⟨(y 1).val, (y 1).isLt⟩)
  refine congrArg (V c main_v10) ?_
  funext a; apply Fin.ext
  match a with
  | ⟨0, _⟩ =>
    show win3_3.index t (0 : Fin 2) * 128 + 1 * (y 0).val = t.val % 8 * 128 + (y 0).val
    omega
  | ⟨1, _⟩ =>
    show win3_3.index t (1 : Fin 2) * 1024 + 1 * (y 1).val = (y 1).val
    omega

end Cert.KernelIdeal.Val

end
-- ==== Proof.Val.Step.lean ====
/- One grid point's step of the fused attention call, read at an index: the accumulator plus the contribution of the point's
   head pair. The kernel body's arithmetic is read operation by operation: the three products as sums over their contracted
   coordinate, the row maximum and row sum as a fold and a sum over the row, the column casts and broadcasts as reads of the
   column, the lane slices as reads of the blocks' lanes, and the two heads' outputs laid side by side. -/
import proofs.«415008_j37847251812357_3_alg».proof.Proof.KI.RegR
import proofs.«415008_j37847251812357_3_alg».proof.Proof.StepSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand Idealize.ShloMosaic Idealize.ShloMosaic.ValueIdx
open scoped BigOperators

/-! ### The three products at an index -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- A query block times a key block transposed, into zero: at (r, t) the sum over the 64 features of the products. -/
theorem matmul_qk_apply (x : FVec Ideal S256x64 .bf16) (y : FVec Ideal S2048x64 .bf16) (r : Fin 256) (t : Fin 2048) :
    matmul dot_S256x64_S2048x64_S256x2048_1_1_0_0_n_n none x y (constant S256x2048 .f32 0x00000000#32) (ix2 r t)
      = ∑ c : Fin 64, x (ix2 r c) * y (ix2 t c) := by
  simp only [matmul]
  rw [Ideal.matmul_constant_zero_apply, ← Equiv.sum_comp (contrEquiv1 dot_S256x64_S2048x64_S256x2048_1_1_0_0_n_n 64 rfl rfl).symm]
  refine Finset.sum_congr rfl fun c _ => ?_
  have hc := contrEquiv1_symm_val dot_S256x64_S2048x64_S256x2048_1_1_0_0_n_n 64 rfl rfl c
  have el : dot_S256x64_S2048x64_S256x2048_1_1_0_0_n_n.lhsIdx (ix2 r t) ((contrEquiv1 dot_S256x64_S2048x64_S256x2048_1_1_0_0_n_n 64 rfl rfl).symm c) = ix2 r c := funext fun ax => Fin.ext (by
    match ax with
    | ⟨0, _⟩ => exact lhs_qk_0 _ _
    | ⟨1, _⟩ => exact (lhs_qk_1 _ _).trans hc)
  have er : dot_S256x64_S2048x64_S256x2048_1_1_0_0_n_n.rhsIdx (ix2 r t) ((contrEquiv1 dot_S256x64_S2048x64_S256x2048_1_1_0_0_n_n 64 rfl rfl).symm c) = ix2 t c := funext fun ax => Fin.ext (by
    match ax with
    | ⟨0, _⟩ => exact rhs_qk_0 _ _
    | ⟨1, _⟩ => exact (rhs_qk_1 _ _).trans hc)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q

/-- A row of weights times a value block, into zero: at (r, e) the sum over the 2048 rows of the products. -/
theorem matmul_pv_apply (x : FVec Ideal S256x2048 .bf16) (y : FVec Ideal S2048x64 .bf16) (r : Fin 256) (e : Fin 64) :
    matmul dot_S256x2048_S2048x64_S256x64_1_0_0_1_n_n none x y (constant S256x64 .f32 0x00000000#32) (ix2 r e)
      = ∑ c : Fin 2048, x (ix2 r c) * y (ix2 c e) := by
  simp only [matmul]
  rw [Ideal.matmul_constant_zero_apply, ← Equiv.sum_comp (contrEquiv1 dot_S256x2048_S2048x64_S256x64_1_0_0_1_n_n 2048 rfl rfl).symm]
  refine Finset.sum_congr rfl fun c _ => ?_
  have hc := contrEquiv1_symm_val dot_S256x2048_S2048x64_S256x64_1_0_0_1_n_n 2048 rfl rfl c
  have el : dot_S256x2048_S2048x64_S256x64_1_0_0_1_n_n.lhsIdx (ix2 r e) ((contrEquiv1 dot_S256x2048_S2048x64_S256x64_1_0_0_1_n_n 2048 rfl rfl).symm c) = ix2 r c := funext fun ax => Fin.ext (by
    match ax with
    | ⟨0, _⟩ => exact lhs_pv_0 _ _
    | ⟨1, _⟩ => exact (lhs_pv_1 _ _).trans hc)
  have er : dot_S256x2048_S2048x64_S256x64_1_0_0_1_n_n.rhsIdx (ix2 r e) ((contrEquiv1 dot_S256x2048_S2048x64_S256x64_1_0_0_1_n_n 2048 rfl rfl).symm c) = ix2 c e := funext fun ax => Fin.ext (by
    match ax with
    | ⟨0, _⟩ => exact (rhs_pv_0 _ _).trans hc
    | ⟨1, _⟩ => exact rhs_pv_1 _ _)
  rw [el, er]

theorem lhs_ow_0 (i : S256x1024.Idx) (q : dot_S256x128_S128x1024_S256x1024_1_0_0_1_n_n.contr.Idx) :
    (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem lhs_ow_1 (i : S256x1024.Idx) (q : dot_S256x128_S128x1024_S256x1024_1_0_0_1_n_n.contr.Idx) :
    (dot_S256x128_S128x1024_S256x1024_1_0_0_1_n_n.lhsIdx i q 1).val = (q ⟨0, by decide⟩).val :=
  dot_S256x128_S128x1024_S256x1024_1_0_0_1_n_n.lhsIdx_val_of_single rfl i q
theorem rhs_ow_1 (i : S256x1024.Idx) (q : dot_S256x128_S128x1024_S256x1024_1_0_0_1_n_n.contr.Idx) :
    (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl
theorem rhs_ow_0 (i : S256x1024.Idx) (q : dot_S256x128_S128x1024_S256x1024_1_0_0_1_n_n.contr.Idx) :
    (dot_S256x128_S128x1024_S256x1024_1_0_0_1_n_n.rhsIdx i q 0).val = (q ⟨0, by decide⟩).val :=
  dot_S256x128_S128x1024_S256x1024_1_0_0_1_n_n.rhsIdx_val_of_single rfl i q

/-- The head pair's outputs times the weight rows, into zero: at (r, o) the sum over the 128 lanes of the products. -/
theorem matmul_ow_apply (x : FVec Ideal S256x128 .bf16) (y : FVec Ideal S128x1024 .bf16) (r : Fin 256) (o : Fin 1024) :
    matmul dot_S256x128_S128x1024_S256x1024_1_0_0_1_n_n none x y (constant S256x1024 .f32 0x00000000#32) (ix2 r o)
      = ∑ c : Fin 128, x (ix2 r c) * y (ix2 c o) := by
  simp only [matmul]
  rw [Ideal.matmul_constant_zero_apply, ← Equiv.sum_comp (contrEquiv1 dot_S256x128_S128x1024_S256x1024_1_0_0_1_n_n 128 rfl rfl).symm]
  refine Finset.sum_congr rfl fun c _ => ?_
  have hc := contrEquiv1_symm_val dot_S256x128_S128x1024_S256x1024_1_0_0_1_n_n 128 rfl rfl c
  have el : dot_S256x128_S128x1024_S256x1024_1_0_0_1_n_n.lhsIdx (ix2 r o) ((contrEquiv1 dot_S256x128_S128x1024_S256x1024_1_0_0_1_n_n 128 rfl rfl).symm c) = ix2 r c := funext fun ax => Fin.ext (by
    match ax with
    | ⟨0, _⟩ => exact lhs_ow_0 _ _
    | ⟨1, _⟩ => exact (lhs_ow_1 _ _).trans hc)
  have er : dot_S256x128_S128x1024_S256x1024_1_0_0_1_n_n.rhsIdx (ix2 r o) ((contrEquiv1 dot_S256x128_S128x1024_S256x1024_1_0_0_1_n_n 128 rfl rfl).symm c) = ix2 c o := funext fun ax => Fin.ext (by
    match ax with
    | ⟨0, _⟩ => exact (rhs_ow_0 _ _).trans hc
    | ⟨1, _⟩ => exact rhs_ow_1 _ _)
  rw [el, er]

/-! ### Row reductions and the column broadcasts -/

/-- The bottom word is the bottom element. -/
theorem ofBits_neg_inf : Ideal.ofBits .f32 0xFF800000#32 = ⊥ := by
  simp [Ideal.ofBits, Ideal.ieee]

/-- A row maximum from the bottom word, at row `r`: the maximum of the row from the bottom element. -/
theorem rowmax_apply (m : FVec Ideal S256x2048 .f32) (h : S256x2048.Reduces [1] S256) (hφ : FKind.Formats .f32)
    (hacc : (0xFF800000#32 : BitVec 32) = FKind.maximumf.neutral .f32 hφ) (r : Fin 256) :
    multiReduction .maximumf [1] S256 m 0xFF800000#32 h hφ hacc (ix1 r) = Cert.Spec.rowmax (fun t => m (ix2 r t)) := by
  refine (Ideal.multiReduction_maximumf_single m 0xFF800000#32 h hφ hacc (ix1 r)).trans ?_
  have hb : FloatOps.ofBits (F := Ideal) .f32 0xFF800000#32 = ⊥ := ofBits_neg_inf
  rw [hb]
  have hl : ∀ t : Fin 2048, h.lift (ix1 r) t = ix2 r t := fun t => funext fun ax => Fin.ext (by
    match ax with
    | ⟨0, _⟩ => rfl
    | ⟨1, _⟩ => rfl)
  show (Finset.univ : Finset (Fin 2048)).fold max ⊥ (fun t : Fin 2048 => m (h.lift (ix1 r) t)) = _
  simp only [hl]
  rfl

/-- A row sum from the zero word, at row `r`: the sum of the row. -/
theorem rowsum_apply (m : FVec Ideal S256x2048 .f32) (h : S256x2048.Reduces [1] S256) (hφ : FKind.Formats .f32)
    (hacc : (0x00000000#32 : BitVec 32) = FKind.add.neutral .f32 hφ) (r : Fin 256) :
    multiReduction .add [1] S256 m 0x00000000#32 h hφ hacc (ix1 r) = ∑ t : Fin 2048, m (ix2 r t) := by
  refine (Ideal.multiReduction_add_single m 0x00000000#32 h hφ hacc (ix1 r)).trans ?_
  have hl : ∀ t : Fin 2048, h.lift (ix1 r) t = ix2 r t := fun t => funext fun ax => Fin.ext (by
    match ax with
    | ⟨0, _⟩ => rfl
    | ⟨1, _⟩ => rfl)
  show ∑ t : Fin 2048, m (h.lift (ix1 r) t) = _
  simp only [hl]

/-- A vector of 256 cast to a column reads, at `(r, u)`, the vector at `r`. -/
theorem shapeCast_a_a1_apply {α : Type} (v : S256.Idx → α) (h : S256.ShapeCasts S256x1) (r : Fin 256) (u : Fin 1) :
    shapeCast S256x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column of 256 broadcast along `n` lanes reads, at `(r, c)`, the column at `r`. -/
theorem broadcastTo_a1_ab_apply {α : Type} {n : ℕ} (v : S256x1.Idx → α) (h : S256x1.Broadcasts ⟨2, ![256, n]⟩)
    (r : Fin 256) (c : Fin n) : broadcastTo ⟨2, ![256, n]⟩ v h (ix2 r c) = v (ix2 r (0 : Fin 1)) := by
  refine broadcastTo_apply v h (ix2 r c) (ix2 r (0 : Fin 1)) fun ax => ?_
  match ax with
  | ⟨0, _⟩ => rfl
  | ⟨1, _⟩ => rfl

/-! ### The score, exponential and head-output stages over generic operands -/

/-- The scaled scores of a query block against a key block. -/
def scoresV (q : FVec Ideal S256x64 .bf16) (k : FVec Ideal S2048x64 .bf16) : FVec Ideal S256x2048 .f32 :=
  mulf (matmul dot_S256x64_S2048x64_S256x2048_1_1_0_0_n_n none q k (constant S256x2048 .f32 0x00000000#32))
    (broadcast S256x2048 (Scalar.ofBits .f32 0x3E000000#32))

theorem scoresV_apply (q : FVec Ideal S256x64 .bf16) (k : FVec Ideal S2048x64 .bf16) (r : Fin 256) (t : Fin 2048) :
    scoresV q k (ix2 r t) = (∑ e : Fin 64, q (ix2 r e) * k (ix2 t e)) * Ideal.ofBits .f32 0x3E000000#32 := by
  unfold scoresV
  rw [mulf_apply, matmul_qk_apply]
  rfl

/-- The exponentials of the scaled scores against their rows' maxima. -/
def expsV (q : FVec Ideal S256x64 .bf16) (k : FVec Ideal S2048x64 .bf16) : FVec Ideal S256x2048 .f32 :=
  exp (subf (scoresV q k) (broadcastTo S256x2048 (shapeCast S256x1 (multiReduction .maximumf [1] S256 (scoresV q k) 0xFF800000#32 reduces_S256x2048_S256 (.inl rfl) rfl) shapeCasts_S256_S256x1) broadcasts_S256x1_S256x2048))

theorem expsV_apply (q : FVec Ideal S256x64 .bf16) (k : FVec Ideal S2048x64 .bf16) (r : Fin 256) (t : Fin 2048) :
    expsV q k (ix2 r t) = Cert.Spec.pexp (fun t' => scoresV q k (ix2 r t')) t := by
  unfold expsV Cert.Spec.pexp
  show Ideal.exp (scoresV q k (ix2 r t) - broadcastTo S256x2048 _ _ (ix2 r t)) = _
  rw [broadcastTo_a1_ab_apply, shapeCast_a_a1_apply]
  exact congrArg (fun m => Ideal.exp (scoresV q k (ix2 r t) - m)) (rowmax_apply (scoresV q k) _ _ _ r)

/-- A head's output from its exponentials and its value block: contract, then divide by the row sums. -/
def headV (p : FVec Ideal S256x2048 .f32) (v : FVec Ideal S2048x64 .bf16) : FVec Ideal S256x64 .f32 :=
  divf (matmul dot_S256x2048_S2048x64_S256x64_1_0_0_1_n_n none (truncf .bf16 p bitsLt_bf16_f32) v (constant S256x64 .f32 0x00000000#32))
    (broadcastTo S256x64 (shapeCast S256x1 (multiReduction .add [1] S256 p 0x00000000#32 reduces_S256x2048_S256 (.inl rfl) rfl) shapeCasts_S256_S256x1) broadcasts_S256x1_S256x64)

theorem headV_apply (p : FVec Ideal S256x2048 .f32) (v : FVec Ideal S2048x64 .bf16) (r : Fin 256) (e : Fin 64) :
    headV p v (ix2 r e) = Ideal.div (∑ t : Fin 2048, p (ix2 r t) * v (ix2 t e)) (∑ t : Fin 2048, p (ix2 r t)) := by
  unfold headV
  rw [divf_apply, matmul_pv_apply, broadcastTo_a1_ab_apply, shapeCast_a_a1_apply]
  exact congrArg₂ Ideal.div (Finset.sum_congr rfl fun c _ => rfl) (rowsum_apply p _ _ _ r)

/-! ### The payloads as these stages of the blocks' lanes -/

theorem pay9_eq (x0 : Vec Ideal S1x256x128 .bf16) (x1 : Vec Ideal S1x2048x128 .bf16) :
    k3_pay9 (F := Ideal) x0 x1
      = expsV (extractStridedSlice S256x64 ![0, 64] (k3_pay4 (F := Ideal) x0) slices_S256x128_o0_64_S256x64)
          (extractStridedSlice S2048x64 ![0, 64] (k3_pay5 (F := Ideal) x1) slices_S2048x128_o0_64_S2048x64) := rfl

theorem pay8_eq (x2 : Vec Ideal S1x2048x128 .bf16) :
    k3_pay8 (F := Ideal) x2 = extractStridedSlice S2048x64 ![0, 64] (k3_pay6 (F := Ideal) x2) slices_S2048x128_o0_64_S2048x64 := rfl

theorem pay7_eq (x0 : Vec Ideal S1x256x128 .bf16) (x1 x2 : Vec Ideal S1x2048x128 .bf16) :
    k3_pay7 (F := Ideal) x0 x1 x2
      = headV (expsV (extractStridedSlice S256x64 ![0, 0] (k3_pay4 (F := Ideal) x0) slices_S256x128_o0_0_S256x64)
            (extractStridedSlice S2048x64 ![0, 0] (k3_pay5 (F := Ideal) x1) slices_S2048x128_o0_0_S2048x64))
          (extractStridedSlice S2048x64 ![0, 0] (k3_pay6 (F := Ideal) x2) slices_S2048x128_o0_0_S2048x64) := rfl

/-- Lanes `off ..` of the query block, at `(r, e)`: the block at lane `off + e`. -/
theorem sliceQ_apply (off : ℕ) (x0 : Vec Ideal S1x256x128 .bf16) (h : S256x128.Slices ![0, off] S256x64)
    (r : Fin 256) (e : Fin 64) (l : Fin 128) (hl : l.val = off + e.val) :
    extractStridedSlice S256x64 ![0, off] (k3_pay4 (F := Ideal) x0) h (ix2 r e) = x0 (ix3 (0 : Fin 1) r l) := by
  rw [slice2_axis1_apply off _ h r e l hl]
  exact shapeCast_1ab_ab_apply x0 shapeCasts_S1x256x128_S256x128 r l

theorem sliceK_apply (off : ℕ) (x1 : Vec Ideal S1x2048x128 .bf16) (h : S2048x128.Slices ![0, off] S2048x64)
    (t : Fin 2048) (e : Fin 64) (l : Fin 128) (hl : l.val = off + e.val) :
    extractStridedSlice S2048x64 ![0, off] (k3_pay5 (F := Ideal) x1) h (ix2 t e) = x1 (ix3 (0 : Fin 1) t l) := by
  rw [slice2_axis1_apply off _ h t e l hl]
  exact shapeCast_1ab_ab_apply x1 shapeCasts_S1x2048x128_S2048x128 t l

theorem sliceV_apply (off : ℕ) (x2 : Vec Ideal S1x2048x128 .bf16) (h : S2048x128.Slices ![0, off] S2048x64)
    (t : Fin 2048) (e : Fin 64) (l : Fin 128) (hl : l.val = off + e.val) :
    extractStridedSlice S2048x64 ![0, off] (k3_pay6 (F := Ideal) x2) h (ix2 t e) = x2 (ix3 (0 : Fin 1) t l) := by
  rw [slice2_axis1_apply off _ h t e l hl]
  exact shapeCast_1ab_ab_apply x2 shapeCasts_S1x2048x128_S2048x128 t l

/-- The head whose lanes start at `off`, at `(r, e)`: the pair's attention output at lane `j = off + e`. -/
theorem head_at (off : ℕ) (x0 : Vec Ideal S1x256x128 .bf16) (x1 x2 : Vec Ideal S1x2048x128 .bf16)
    (hq : S256x128.Slices ![0, off] S256x64) (hk hv : S2048x128.Slices ![0, off] S2048x64)
    (r : Fin 256) (e : Fin 64) (j : Fin 128) (hj : j.val = off + e.val) (hjo : j.val / 64 * 64 = off) :
    headV (expsV (extractStridedSlice S256x64 ![0, off] (k3_pay4 (F := Ideal) x0) hq) (extractStridedSlice S2048x64 ![0, off] (k3_pay5 (F := Ideal) x1) hk)) (extractStridedSlice S2048x64 ![0, off] (k3_pay6 (F := Ideal) x2) hv) (ix2 r e) = Cert.Spec.pairHead x0 x1 x2 r j := by
  have hsc : ∀ t' : Fin 2048, scoresV (extractStridedSlice S256x64 ![0, off] (k3_pay4 (F := Ideal) x0) hq) (extractStridedSlice S2048x64 ![0, off] (k3_pay5 (F := Ideal) x1) hk) (ix2 r t') = Cert.Spec.scB x0 x1 r j t' := by
    intro t'
    rw [scoresV_apply]
    show _ = (∑ c : Fin 64, x0 (ix3 0 r (Cert.Spec.lane j c)) * x1 (ix3 0 t' (Cert.Spec.lane j c))) * Ideal.ofBits .f32 0x3E000000#32
    refine congrArg (· * Ideal.ofBits .f32 0x3E000000#32) (Finset.sum_congr rfl fun c _ => ?_)
    have hl : (Cert.Spec.lane j c).val = off + c.val := by
      show j.val / 64 * 64 + c.val = _
      rw [hjo]
    rw [sliceQ_apply off x0 hq r c (Cert.Spec.lane j c) hl, sliceK_apply off x1 hk t' c (Cert.Spec.lane j c) hl]
  have hp : ∀ t : Fin 2048, expsV (extractStridedSlice S256x64 ![0, off] (k3_pay4 (F := Ideal) x0) hq) (extractStridedSlice S2048x64 ![0, off] (k3_pay5 (F := Ideal) x1) hk) (ix2 r t) = Cert.Spec.pexp (Cert.Spec.scB x0 x1 r j) t := by
    intro t
    rw [expsV_apply]
    exact congrArg (fun f => Cert.Spec.pexp f t) (funext hsc)
  rw [headV_apply]
  unfold Cert.Spec.pairHead
  refine congrArg₂ Ideal.div (Finset.sum_congr rfl fun t _ => ?_) (Finset.sum_congr rfl fun t _ => hp t)
  rw [hp t, sliceV_apply off x2 hv t e j hj]

/-! ### The two heads side by side, and the step -/

/-- Two blocks of 64 lanes laid side by side, at lane `j`: the first below 64, else the second at `j - 64`. -/
theorem concat_apply (a b : FVec Ideal S256x64 .f32) (h : Shape.Concatenates [S256x64, S256x64] S256x128 1)
    (r : Fin 256) (j : Fin 128) :
    concatenate S256x128 1 [⟨S256x64, a⟩, ⟨S256x64, b⟩] h (ix2 r j)
      = if hlt : j.val < 64 then a (ix2 r ⟨j.val, hlt⟩) else b (ix2 r ⟨j.val - 64, by have := j.isLt; omega⟩) := by
  split
  · next hlt =>
    exact concatenate_pair_apply_left 1 a b h (ix2 r j) rfl (ix2 r ⟨j.val, hlt⟩) (fun ax => by
      match ax with
      | ⟨0, _⟩ => rfl
      | ⟨1, _⟩ => rfl)
  · next hge =>
    exact concatenate_pair_apply_right 1 a b h (ix2 r j) rfl rfl (ix2 r ⟨j.val - 64, by have := j.isLt; omega⟩) (fun ax hb => by
      match ax with
      | ⟨0, _⟩ => rfl
      | ⟨1, _⟩ => exact absurd (Fin.ext rfl) hb) (by show (j.val - 64) + 64 = j.val; omega)

/-- The stored value at `(r, o)`: the accumulator plus the sum over the 128 lanes of the head pair's outputs times the
    weight rows. -/
theorem addContrib_apply (v25 : FVec Ideal S256x64 .f32) (v28 : FVec Ideal S2048x64 .bf16) (v36 : FVec Ideal S256x2048 .f32)
    (v45 : Vec Ideal S128x1024 .bf16) (v48 : Vec Ideal S256x1024 .f32) (r : Fin 256) (o : Fin 1024) :
    k3_pay1 (F := Ideal) v25 v28 v36 v45 v48 (ix2 r o)
      = v48 (ix2 r o) + ∑ j : Fin 128,
          (if hlt : j.val < 64 then v25 (ix2 r ⟨j.val, hlt⟩) else headV v36 v28 (ix2 r ⟨j.val - 64, by have := j.isLt; omega⟩))
            * v45 (ix2 j o) := by
  have e1 : k3_pay1 (F := Ideal) v25 v28 v36 v45 v48
      = shapeCast S256x1024 (addf v48 (matmul dot_S256x128_S128x1024_S256x1024_1_0_0_1_n_n none
          (truncf .bf16 (concatenate S256x128 1 [⟨S256x64, v25⟩, ⟨S256x64, headV v36 v28⟩] concatenates_S256x64_S256x64_S256x128_d1) bitsLt_bf16_f32)
          (shapeCast S128x1024 v45 shapeCasts_S128x1024_S128x1024) (constant S256x1024 .f32 0x00000000#32)))
          shapeCasts_S256x1024_S256x1024 := rfl
  rw [e1, shapeCast_self, addf_apply, matmul_ow_apply]
  refine congrArg (v48 (ix2 r o) + ·) (Finset.sum_congr rfl fun j _ => ?_)
  rw [shapeCast_self, truncf_apply, concat_apply]

theorem step3_apply (x0 : Vec Ideal S1x256x128 .bf16) (x1 x2 : Vec Ideal S1x2048x128 .bf16) (x3 : Vec Ideal S128x1024 .bf16)
    (prev : Vec Ideal S256x1024 .f32) (r : Fin 256) (o : Fin 1024) :
    step3 (F := Ideal) x0 x1 x2 x3 prev (ix2 r o) = prev (ix2 r o) + Cert.Spec.contrib x0 x1 x2 x3 r o := by
  unfold step3
  rw [addContrib_apply]
  unfold Cert.Spec.contrib
  refine congrArg (prev (ix2 r o) + ·) (Finset.sum_congr rfl fun j _ => ?_)
  congr 1
  split
  · next hlt =>
    rw [pay7_eq]
    exact head_at 0 x0 x1 x2 _ _ _ r ⟨j.val, hlt⟩ j (Nat.zero_add _).symm (by omega)
  · next hge =>
    rw [pay9_eq, pay8_eq]
    exact head_at 64 x0 x1 x2 _ _ _ r ⟨j.val - 64, by have := j.isLt; omega⟩ j (by show j.val = 64 + (j.val - 64); omega) (by have := j.isLt; omega)

end Cert.KernelIdeal.Val

end
-- ==== Proof.Val.ValR.lean ====
/- The fused attention call's accumulator over the eight head pairs of a (batch, query tile) group, and the output array it
   leaves: after the group's last point the accumulator holds, at row r and feature o, the sum over the head pairs of their
   contributions, which is the call's closed formula at the tile's row; the output blocks written back at those points tile
   the whole [2, 2048, 1024] array. -/
import proofs.«415008_j37847251812357_3_alg».proof.Proof.KI.RegR
import proofs.«415008_j37847251812357_3_alg».proof.Proof.StepSpec
import proofs.«415008_j37847251812357_3_alg».proof.Proof.Bridge
import proofs.«415008_j37847251812357_3_alg».proof.Proof.Val.Blocks
import proofs.«415008_j37847251812357_3_alg».proof.Proof.Val.Step
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat Cfg Window)
open scoped BigOperators

variable (V : (c : Dev nD) → (b : Ref sig .tc) → Buf (Elt Ideal) ((c : Thread nD τ).loc b))

/-! ## The accumulator over a group's eight points -/

/-- The zero splat the accumulator is reset to. -/
theorem k3_pay3_apply (i : S256x1024.Idx) : (k3_pay3 (F := Ideal)) i = 0 := by
  unfold k3_pay3
  rw [shapeCast_self]
  exact Ideal.ofBits_zero_f32

/-- Head pair `p`'s contribution to row `r`, feature `o` of the tile (b, qi). -/
def pairTerm (c : Dev nD) (b : Fin 2) (qi p : Fin 8) (r : Fin 256) (o : Fin 1024) : EReal :=
  Cert.Spec.contrib (Cert.Spec.blkQ (V c main_v17) b qi p) (Cert.Spec.blkK (V c main_v18) b p) (Cert.Spec.blkK (V c main_v19) b p)
    (Cert.Spec.blkW (V c main_v10) p) r o

/-- One point's step adds its head pair's contribution. -/
theorem stepAt3_apply (c : Dev nD) (t : Fin cfg3.N) (prev : Vec Ideal S256x1024 .f32) (r : Fin 256) (o : Fin 1024) :
    stepAt3 (F := Ideal) V c t prev (ix2 r o) = prev (ix2 r o) + pairTerm V c (tb t) (tq t) (tp t) r o := by
  unfold stepAt3 pairTerm
  rw [step3_apply, iblk3_0, iblk3_1, iblk3_2, iblk3_3]

theorem point_lt (t : Fin cfg3.N) : t.val < 128 := t.isLt.trans_eq N_3

/-- The sum of the first `k + 1` head pairs' contributions. -/
def partialSum (c : Dev nD) (b : Fin 2) (qi : Fin 8) (r : Fin 256) (o : Fin 1024) (k : ℕ) : EReal :=
  ∑ p ∈ Finset.range (k + 1), if h : p < 8 then pairTerm V c b qi ⟨p, h⟩ r o else 0

/-- After the point with head-pair coordinate `k` the accumulator holds the first `k + 1` contributions of its group. -/
theorem accAt3_partial (c : Dev nD) (r : Fin 256) (o : Fin 1024) :
    ∀ (k : ℕ) (t : Fin cfg3.N), t.val % 8 = k →
      accAt3 (F := Ideal) V c t.val t.isLt (ix2 r o) = partialSum V c (tb t) (tq t) r o k := by
  intro k
  induction k with
  | zero =>
    intro t ht
    rw [accAt3_reset V c t ht, stepAt3_apply, k3_pay3_apply, zero_add]
    unfold partialSum
    rw [Finset.sum_range_one, dif_pos (by decide : 0 < 8)]
    exact congrArg (fun p => pairTerm V c (tb t) (tq t) p r o) (Fin.ext ht)
  | succ k ih =>
    intro t ht
    have hlt := point_lt t
    have hne : ¬t.val % 8 = 0 := by omega
    have hk : k + 1 < 8 := by omega
    rw [accAt3_carry V c t hne, stepAt3_apply]
    have hprev := ih ⟨t.val - 1, Nat.lt_of_le_of_lt (Nat.sub_le _ _) t.isLt⟩ (by show (t.val - 1) % 8 = k; omega)
    have eb : tb ⟨t.val - 1, Nat.lt_of_le_of_lt (Nat.sub_le _ _) t.isLt⟩ = tb t := Fin.ext (by show (t.val - 1) / 64 = t.val / 64; omega)
    have eq : tq ⟨t.val - 1, Nat.lt_of_le_of_lt (Nat.sub_le _ _) t.isLt⟩ = tq t := Fin.ext (by show (t.val - 1) / 8 % 8 = t.val / 8 % 8; omega)
    rw [eb, eq] at hprev
    rw [show accAt3 (F := Ideal) V c (t.val - 1) (Nat.lt_of_le_of_lt (Nat.sub_le _ _) t.isLt) (ix2 r o) = _ from hprev]
    unfold partialSum
    rw [Finset.sum_range_succ _ (k + 1), dif_pos hk]
    exact congrArg (fun p => _ + pairTerm V c (tb t) (tq t) p r o) (Fin.ext ht)

/-- After a group's last point the accumulator holds the call's formula at the tile's row. -/
theorem accAt3_last (c : Dev nD) (t : Fin cfg3.N) (ht : t.val % 8 = 7) (r : Fin 256) (o : Fin 1024) :
    accAt3 (F := Ideal) V c t.val t.isLt (ix2 r o)
      = Cert.Spec.outKP (V c main_v17) (V c main_v18) (V c main_v19) (V c main_v10) (tb t) (Cert.Spec.row (tq t) r) o := by
  rw [accAt3_partial V c r o 7 t ht, ← Cert.Spec.sum_contrib_blocks]
  unfold partialSum
  rw [Finset.sum_range]
  exact Finset.sum_congr rfl fun p _ => dif_pos p.isLt

/-! ## From the output blocks to the array -/

/-- The call's result array, index by index. -/
abbrev outArr (c : Dev nD) : S2x2048x1024.Idx → EReal := fun i =>
  Cert.Spec.outKP (V c main_v17) (V c main_v18) (V c main_v19) (V c main_v10) (i 0) (i 1) (i 2)

/-- The accumulator stored as a [1, 256, 1024] block reads (u, r, o) at (r, o). -/
theorem k3_pay2_apply (acc : Vec Ideal S256x1024 .f32) (j : S1x256x1024.Idx) :
    k3_pay2 (F := Ideal) acc j = acc (ix2 (j 1) (j 2)) := by
  unfold k3_pay2
  conv_lhs => rw [eq_ix3 j]
  exact shapeCast_ab_1ab_apply acc _ (j 0) (j 1) (j 2)

/-- The output window's block indices, decided over the grid: batch, query tile, and the one block of features. -/
theorem out_index : ∀ t : Fin cfg3.N, win3_4.index t (0 : Fin 3) = t.val / 64 ∧ win3_4.index t (1 : Fin 3) = t.val / 8 % 8
    ∧ win3_4.index t (2 : Fin 3) = 0 :=
  (by decide +kernel : ∀ t : Fin grid3.N, _)

/-- What a group's last point writes back is its block of the result array. -/
theorem flushed3_eq (c : Dev nD) (t : Fin cfg3.N) (hf : (cfg3.win 4).flush t = true) :
    (dat3 (F := Ideal) V c).flushed 4 t = ((cfg3.win 4).blk t).view.read (Elt Ideal) (outArr V c) := by
  have h7 : t.val % 8 = 7 := (flush3_4 t).mp hf
  have hlt := point_lt t
  obtain ⟨e0, e1, e2⟩ := out_index t
  show (cfg3.win 4).cut (grid3.coords t) ((dat3 (F := Ideal) V c).after 4 t) = _
  rw [after3_4]
  funext y
  show k3_pay2 (F := Ideal) (accAt3 (F := Ideal) V c t.val t.isLt) ((cfg3.win 4).xinj (grid3.coords t) y)
    = outArr V c (((cfg3.win 4).blk t).view.emb y)
  have h0 : (y 0).val < 1 := (y 0).isLt
  have h1 : (y 1).val < 256 := (y 1).isLt
  have h2 : (y 2).val < 1024 := (y 2).isLt
  have a0 : ((cfg3.win 4).blk t).view.emb y 0 = tb t := Fin.ext (by
    show win3_4.index t (0 : Fin 3) * 1 + 1 * (y 0).val = t.val / 64
    omega)
  have a1 : ((cfg3.win 4).blk t).view.emb y 1 = Cert.Spec.row (tq t) ⟨(y 1).val, h1⟩ := Fin.ext (by
    show win3_4.index t (1 : Fin 3) * 256 + 1 * (y 1).val = t.val / 8 % 8 * 256 + (y 1).val
    omega)
  have a2 : ((cfg3.win 4).blk t).view.emb y 2 = ⟨(y 2).val, h2⟩ := Fin.ext (by
    show win3_4.index t (2 : Fin 3) * 1024 + 1 * (y 2).val = (y 2).val
    omega)
  show _ = Cert.Spec.outKP (V c main_v17) (V c main_v18) (V c main_v19) (V c main_v10) (((cfg3.win 4).blk t).view.emb y 0)
    (((cfg3.win 4).blk t).view.emb y 1) (((cfg3.win 4).blk t).view.emb y 2)
  rw [a0, a1, a2]
  refine (k3_pay2_apply _ _).trans ?_
  exact accAt3_last V c t h7 ⟨(y 1).val, h1⟩ ⟨(y 2).val, h2⟩

/-- An index of the array is in point `t`'s block iff each coordinate is in the block's range on its axis. -/
theorem mem_blk3 (t : Fin cfg3.N) (i : S2x2048x1024.Idx) :
    i ∈ ((cfg3.win 4).blk t).view.set ↔ ∀ a : Fin 3, win3_4.index t a * S1x256x1024.size a ≤ (i a).val
      ∧ (i a).val < win3_4.index t a * S1x256x1024.size a + S1x256x1024.size a := by
  show i ∈ ((View.whole main_v20).slice (win3_4.rect t)).set ↔ _
  rw [View.set_slice_whole, Rect.mem_set_unit]
  exact Iff.rfl

/-- Every index of the array lies in the block some group's last point writes back. -/
theorem cover3 (i : S2x2048x1024.Idx) :
    ∃ t : Fin cfg3.N, (cfg3.win 4).flush t = true ∧ i ∈ ((cfg3.win 4).blk t).view.set := by
  have hi0 : (i 0).val < 2 := (i 0).isLt
  have hi1 : (i 1).val < 2048 := (i 1).isLt
  have hi2 : (i 2).val < 1024 := (i 2).isLt
  have hN : cfg3.N = 128 := N_3
  let t : Fin cfg3.N := ⟨((i 0).val * 8 + (i 1).val / 256) * 8 + 7, by rw [hN]; omega⟩
  have htv : t.val = ((i 0).val * 8 + (i 1).val / 256) * 8 + 7 := rfl
  obtain ⟨e0, e1, e2⟩ := out_index t
  refine ⟨t, (flush3_4 t).mpr (by rw [htv]; omega), ?_⟩
  rw [mem_blk3]
  intro a
  match a with
  | ⟨0, _⟩ =>
    show win3_4.index t (0 : Fin 3) * 1 ≤ (i 0).val ∧ (i 0).val < win3_4.index t (0 : Fin 3) * 1 + 1
    omega
  | ⟨1, _⟩ =>
    show win3_4.index t (1 : Fin 3) * 256 ≤ (i 1).val ∧ (i 1).val < win3_4.index t (1 : Fin 3) * 256 + 256
    omega
  | ⟨2, _⟩ =>
    show win3_4.index t (2 : Fin 3) * 1024 ≤ (i 2).val ∧ (i 2).val < win3_4.index t (2 : Fin 3) * 1024 + 1024
    omega

/-- The output array after the call: the closed formula at every index. -/
theorem arrAt3 (c : Dev nD) : ((dat3 (F := Ideal) V c).arrAt 4 cfg3.N : S2x2048x1024.Idx → EReal)
    = fun i => Cert.Spec.outKP (V c main_v17) (V c main_v18) (V c main_v19) (V c main_v10) (i 0) (i 1) (i 2) :=
  (dat3 (F := Ideal) V c).arrAt_eq_of_cover 4 (outArr V c) (fun t hf => flushed3_eq V c t hf) cover3

end Cert.KernelIdeal.Val

end
-- ==== Proof.Ref.lean ====
/- The reference's result, read off its run one operation at a time, is the formula `Cert.Spec.outR` of the argument arrays. -/
import proofs.«415008_j37847251812357_3_alg».proof.Proof.Gen.ReferenceIdeal.Run
import proofs.«415008_j37847251812357_3_alg».proof.Proof.Gen.ReferenceIdeal.Read
import proofs.«415008_j37847251812357_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.Read
open scoped BigOperators

/-- An input array, a per-head weight array, the output weight array. -/
abbrev XB : Type := (⟨S2x2048x1024, .f32⟩ : BufTy).Contents (Elt Ideal)
abbrev WB : Type := (⟨S16x64x1024, .f32⟩ : BufTy).Contents (Elt Ideal)
abbrev OB : Type := (⟨S1024x1024, .f32⟩ : BufTy).Contents (Elt Ideal)

/-! ## The three projections: a weight row (h, e) against an input row (b, s), laid out as [b, h, s, e] -/

theorem v1_eq (x : XB) (w : WB) (b : Fin 2) (h : Fin 16) (s : Fin 2048) (e : Fin 64) :
    val_main_v1 (F := Ideal) x w (ix4 b h s e) = Cert.Spec.proj x w b s h e := by
  rw [val_main_v1_apply, val_main_v0_apply]
  unfold Cert.Spec.proj
  refine Finset.sum_congr rfl fun d _ => ?_
  have el : lidx_main_v0 (idx_main_v1 (ix4 b h s e)) d = ix3 h e d :=
    funext fun a => Fin.ext (by match a with | ⟨0, _⟩ => rfl | ⟨1, _⟩ => rfl | ⟨2, _⟩ => rfl)
  have er : ridx_main_v0 (idx_main_v1 (ix4 b h s e)) d = ix3 b s d :=
    funext fun a => Fin.ext (by match a with | ⟨0, _⟩ => rfl | ⟨1, _⟩ => rfl | ⟨2, _⟩ => rfl)
  rw [el, er, mul_comm]

theorem v3_eq (x : XB) (w : WB) (b : Fin 2) (h : Fin 16) (s : Fin 2048) (e : Fin 64) :
    val_main_v3 (F := Ideal) x w (ix4 b h s e) = Cert.Spec.proj x w b s h e := by
  rw [val_main_v3_apply, val_main_v2_apply]
  unfold Cert.Spec.proj
  refine Finset.sum_congr rfl fun d _ => ?_
  have el : lidx_main_v2 (idx_main_v3 (ix4 b h s e)) d = ix3 h e d :=
    funext fun a => Fin.ext (by match a with | ⟨0, _⟩ => rfl | ⟨1, _⟩ => rfl | ⟨2, _⟩ => rfl)
  have er : ridx_main_v2 (idx_main_v3 (ix4 b h s e)) d = ix3 b s d :=
    funext fun a => Fin.ext (by match a with | ⟨0, _⟩ => rfl | ⟨1, _⟩ => rfl | ⟨2, _⟩ => rfl)
  rw [el, er, mul_comm]

theorem v5_eq (x : XB) (w : WB) (b : Fin 2) (h : Fin 16) (s : Fin 2048) (e : Fin 64) :
    val_main_v5 (F := Ideal) x w (ix4 b h s e) = Cert.Spec.proj x w b s h e := by
  rw [val_main_v5_apply, val_main_v4_apply]
  unfold Cert.Spec.proj
  refine Finset.sum_congr rfl fun d _ => ?_
  have el : lidx_main_v4 (idx_main_v5 (ix4 b h s e)) d = ix3 h e d :=
    funext fun a => Fin.ext (by match a with | ⟨0, _⟩ => rfl | ⟨1, _⟩ => rfl | ⟨2, _⟩ => rfl)
  have er : ridx_main_v4 (idx_main_v5 (ix4 b h s e)) d = ix3 b s d :=
    funext fun a => Fin.ext (by match a with | ⟨0, _⟩ => rfl | ⟨1, _⟩ => rfl | ⟨2, _⟩ => rfl)
  rw [el, er, mul_comm]

/-! ## The raw scores and the scaled scores -/

theorem v6_eq (xq xk : XB) (wq wk : WB) (b : Fin 2) (h : Fin 16) (s t : Fin 2048) :
    val_main_v6 (F := Ideal) xq xk wq wk (ix4 b h s t) = Cert.Spec.qk xq xk wq wk b h s t := by
  rw [val_main_v6_apply]
  unfold Cert.Spec.qk
  refine Finset.sum_congr rfl fun e _ => ?_
  have el : lidx_main_v6 (ix4 b h s t) e = ix4 b h s e :=
    funext fun a => Fin.ext (by match a with | ⟨0, _⟩ => rfl | ⟨1, _⟩ => rfl | ⟨2, _⟩ => rfl | ⟨3, _⟩ => rfl)
  have er : ridx_main_v6 (ix4 b h s t) e = ix4 b h t e :=
    funext fun a => Fin.ext (by match a with | ⟨0, _⟩ => rfl | ⟨1, _⟩ => rfl | ⟨2, _⟩ => rfl | ⟨3, _⟩ => rfl)
  rw [el, er, v1_eq, v3_eq]

theorem v9_eq (xq xk : XB) (wq wk : WB) (b : Fin 2) (h : Fin 16) (s t : Fin 2048) :
    val_main_v9 (F := Ideal) xq xk wq wk (ix4 b h s t) = Cert.Spec.scR xq xk wq wk b h s t := by
  rw [val_main_v9_apply, val_main_v8_apply, val_main_v7_apply, val_main_cst_apply, v6_eq]
  rfl

/-! ## The row maximum: the one stage read by hand, a fold of the maximum over the key axis from the bottom element -/

theorem red_d3 : S2x16x2048x2048.Reduces [3] S2x16x2048 := by decide

/-- Row (b, h, s) with key coordinate t put back is (b, h, s, t). -/
theorem lift_d3 (b : Fin 2) (h : Fin 16) (s : Fin 2048) (t : Fin 2048) :
    red_d3.lift (ix3 b h s) t = ix4 b h s t :=
  funext fun a => Fin.ext (by match a with | ⟨0, _⟩ => rfl | ⟨1, _⟩ => rfl | ⟨2, _⟩ => rfl | ⟨3, _⟩ => rfl)

theorem ofBits_neg_inf : Ideal.ofBits .f32 0xFF800000#32 = (⊥ : EReal) := by simp [Ideal.ofBits, Ideal.ieee]

theorem v10_eq (xq xk : XB) (wq wk : WB) (b : Fin 2) (h : Fin 16) (s : Fin 2048) :
    val_main_v10 (F := Ideal) xq xk wq wk (ix3 b h s) = Cert.Spec.rowmax (Cert.Spec.scR xq xk wq wk b h s) := by
  unfold val_main_v10
  rw [Host.reduce_eq_fold_single FloatOps.maximumf _ _ reducesTo_S2x16x2048x2048_S2x16x2048_d3 red_d3 h_S_]
  have hf : (val_main_v9 (F := Ideal) xq xk wq wk ∘ red_d3.lift (ix3 b h s)) = Cert.Spec.scR xq xk wq wk b h s :=
    funext fun t => by
      exact (congrArg (val_main_v9 (F := Ideal) xq xk wq wk) (lift_d3 b h s t)).trans (v9_eq xq xk wq wk b h s t)
  refine Eq.trans (b := Finset.fold max (Ideal.ofBits .f32 0xFF800000#32)
    (val_main_v9 (F := Ideal) xq xk wq wk ∘ red_d3.lift (ix3 b h s)) (Finset.univ : Finset (Fin 2048))) rfl ?_
  rw [ofBits_neg_inf]
  exact congrArg (fun f => Finset.fold max (⊥ : EReal) f (Finset.univ : Finset (Fin 2048))) hf

theorem v12_eq (xq xk : XB) (wq wk : WB) (b : Fin 2) (h : Fin 16) (s : Fin 2048) :
    val_main_v12 (F := Ideal) xq xk wq wk (ix3 b h s) = Cert.Spec.rowmax (Cert.Spec.scR xq xk wq wk b h s) := by
  rw [val_main_v12_apply, val_main_v11_apply, val_main_cst_1_apply, v10_eq]
  show max (Ideal.ofBits .f32 0xFF800000#32) _ = _
  rw [ofBits_neg_inf, max_bot_left]

/-! ## The exponentials, their row sum, the normalised weights -/

theorem v16_eq (xq xk : XB) (wq wk : WB) (b : Fin 2) (h : Fin 16) (s t : Fin 2048) :
    val_main_v16 (F := Ideal) xq xk wq wk (ix4 b h s t) = Cert.Spec.pexp (Cert.Spec.scR xq xk wq wk b h s) t := by
  rw [val_main_v16_apply, val_main_v15_apply, val_main_v14_apply, val_main_v13_apply]
  have ei : idx_main_v13 (idx_main_v14 (ix4 b h s t)) = ix3 b h s :=
    funext fun a => Fin.ext (by match a with | ⟨0, _⟩ => rfl | ⟨1, _⟩ => rfl | ⟨2, _⟩ => rfl)
  rw [ei, v12_eq, v9_eq]
  rfl

theorem v17_eq (xq xk : XB) (wq wk : WB) (b : Fin 2) (h : Fin 16) (s : Fin 2048) :
    val_main_v17 (F := Ideal) xq xk wq wk (ix3 b h s) = ∑ t : Fin 2048, Cert.Spec.pexp (Cert.Spec.scR xq xk wq wk b h s) t := by
  rw [val_main_v17_apply, val_main_cst_2_apply]
  show Ideal.ofBits .f32 0x00000000#32 + _ = _
  rw [Ideal.ofBits_zero_f32, zero_add]
  refine Finset.sum_congr rfl fun t _ => ?_
  have ei : idx_main_v17 (ix3 b h s) t = ix4 b h s t :=
    funext fun a => Fin.ext (by match a with | ⟨0, _⟩ => rfl | ⟨1, _⟩ => rfl | ⟨2, _⟩ => rfl | ⟨3, _⟩ => rfl)
  rw [ei, v16_eq]

theorem v20_eq (xq xk : XB) (wq wk : WB) (b : Fin 2) (h : Fin 16) (s t : Fin 2048) :
    val_main_v20 (F := Ideal) xq xk wq wk (ix4 b h s t)
      = Ideal.div (Cert.Spec.pexp (Cert.Spec.scR xq xk wq wk b h s) t)
          (∑ t' : Fin 2048, Cert.Spec.pexp (Cert.Spec.scR xq xk wq wk b h s) t') := by
  rw [val_main_v20_apply, val_main_v19_apply, val_main_v18_apply]
  have ei : idx_main_v18 (idx_main_v19 (ix4 b h s t)) = ix3 b h s :=
    funext fun a => Fin.ext (by match a with | ⟨0, _⟩ => rfl | ⟨1, _⟩ => rfl | ⟨2, _⟩ => rfl)
  rw [ei, v17_eq, v16_eq]
  rfl

/-! ## A head's output, the heads side by side, the output contraction -/

theorem v21_eq (xq xk xv : XB) (wq wk wv : WB) (b : Fin 2) (h : Fin 16) (s : Fin 2048) (e : Fin 64) :
    val_main_v21 (F := Ideal) xq xk xv wq wk wv (ix4 b h s e) = Cert.Spec.headR xq xk xv wq wk wv b h s e := by
  rw [val_main_v21_apply]
  unfold Cert.Spec.headR
  refine Finset.sum_congr rfl fun t _ => ?_
  have el : lidx_main_v21 (ix4 b h s e) t = ix4 b h s t :=
    funext fun a => Fin.ext (by match a with | ⟨0, _⟩ => rfl | ⟨1, _⟩ => rfl | ⟨2, _⟩ => rfl | ⟨3, _⟩ => rfl)
  have er : ridx_main_v21 (ix4 b h s e) t = ix4 b h t e :=
    funext fun a => Fin.ext (by match a with | ⟨0, _⟩ => rfl | ⟨1, _⟩ => rfl | ⟨2, _⟩ => rfl | ⟨3, _⟩ => rfl)
  rw [el, er, v20_eq, v5_eq]

/-- Feature d of row (b, s) is position d % 64 of head d / 64. -/
theorem v23_eq (xq xk xv : XB) (wq wk wv : WB) (b : Fin 2) (s : Fin 2048) (d : Fin 1024) :
    val_main_v23 (F := Ideal) xq xk xv wq wk wv (ix3 b s d)
      = Cert.Spec.headR xq xk xv wq wk wv b (Cert.Spec.hd d) s (Cert.Spec.ft d) := by
  rw [val_main_v23_apply, val_main_v22_apply]
  have ei : idx_main_v22 (idx_main_v23 (ix3 b s d)) = ix4 b (Cert.Spec.hd d) s (Cert.Spec.ft d) :=
    funext fun a => Fin.ext (by
      have hb := b.isLt
      have hs := s.isLt
      have hd := d.isLt
      match a with
      | ⟨0, _⟩ => show ((b.val * 2048 + s.val) * 1024 + d.val) / 2097152 = b.val; omega
      | ⟨1, _⟩ => show ((b.val * 2048 + s.val) * 1024 + d.val) / 64 % 16 = d.val / 64; omega
      | ⟨2, _⟩ => show ((b.val * 2048 + s.val) * 1024 + d.val) / 1024 % 2048 = s.val; omega
      | ⟨3, _⟩ => show ((b.val * 2048 + s.val) * 1024 + d.val) % 64 = d.val % 64; omega)
  rw [ei, v21_eq]

/-- The reference's result at (b, s, o). -/
theorem ref_eq_ix (x0 x1 x2 : XB) (x3 x4 x5 : WB) (x6 : OB) (b : Fin 2) (s : Fin 2048) (o : Fin 1024) :
    val_main_v24 (F := Ideal) x0 x1 x2 x3 x4 x5 x6 (ix3 b s o) = Cert.Spec.outR x0 x1 x2 x3 x4 x5 x6 b s o := by
  rw [val_main_v24_apply]
  unfold Cert.Spec.outR
  refine Finset.sum_congr rfl fun d _ => ?_
  have el : lidx_main_v24 (ix3 b s o) d = ix3 b s d :=
    funext fun a => Fin.ext (by match a with | ⟨0, _⟩ => rfl | ⟨1, _⟩ => rfl | ⟨2, _⟩ => rfl)
  have er : ridx_main_v24 (ix3 b s o) d = ix2 o d :=
    funext fun a => Fin.ext (by match a with | ⟨0, _⟩ => rfl | ⟨1, _⟩ => rfl)
  rw [el, er, v23_eq]

/-- The reference's result is the formula, as arrays. -/
theorem ref_eq (x0 x1 x2 : (⟨S2x2048x1024, .f32⟩ : BufTy).Contents (Elt Ideal)) (x3 x4 x5 : (⟨S16x64x1024, .f32⟩ : BufTy).Contents (Elt Ideal))
    (x6 : (⟨S1024x1024, .f32⟩ : BufTy).Contents (Elt Ideal)) :
    Cert.ReferenceIdeal.Read.val_main_v24 (F := Ideal) x0 x1 x2 x3 x4 x5 x6
      = fun i => Cert.Spec.outR x0 x1 x2 x3 x4 x5 x6 (i 0) (i 1) (i 2) := by
  funext i
  exact (congrArg (val_main_v24 (F := Ideal) x0 x1 x2 x3 x4 x5 x6) (eq_ix3 i)).trans
    (ref_eq_ix x0 x1 x2 x3 x4 x5 x6 (i 0) (i 1) (i 2))

end Cert.ReferenceIdeal.RefValue

end
-- ==== Proof.Alg.lean ====
/- The kernel's formula and the reference's formula agree at real arguments: the scale word is the reciprocal of the
   square root of the divisor word, a quotient of a sum by a nonzero real is the sum of the quotients, and a sum over
   eight blocks of 128 features is the sum over the 1024 features. -/
import proofs.«415008_j37847251812357_3_alg».proof.Proof.Spec
import Idealize.ShloMosaic.PureOps.Ideal
import Mathlib.Data.EReal.Inv
import Mathlib.Analysis.SpecialFunctions.Pow.Real
import Mathlib.Algebra.BigOperators.Fin
import Mathlib.Algebra.Order.BigOperators.Group.Finset
import Mathlib.Order.Fin.Basic
import Mathlib.Logic.Equiv.Fin.Basic

noncomputable section

namespace Cert.Alg

open Idealize.ShloMosaic Idealize.ShloMosaic.ValueIdx
open scoped BigOperators
open Cert.Spec

/-! ### The two words -/

/-- The word `0x3E000000` denotes one eighth. -/
theorem ofBits_eighth : Ideal.ofBits .f32 0x3E000000#32 = ((1 / 8 : ℝ) : EReal) := by
  simp [Ideal.ofBits, Ideal.ieee, -EReal.coe_mul]; norm_num

/-- The word `0x42800000` denotes sixty-four. -/
theorem ofBits_64 : Ideal.ofBits .f32 0x42800000#32 = ((64 : ℝ) : EReal) := by
  simp [Ideal.ofBits, Ideal.ieee, -EReal.coe_mul]; norm_num

/-- Its square root is eight. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-! ### Real values among the extended reals -/

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem isReal_sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih (fun i hi => h i (Finset.mem_insert_of_mem hi))
    exact ⟨x + y, by rw [hx, hy, EReal.coe_add]⟩

/-- The coercion commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### Dividing after contracting against dividing before -/

/-- Over real rows with a nonzero row sum, the quotient of the contraction by the sum is the contraction of the
    quotients. -/
theorem div_sum_real (P v : Fin 2048 → ℝ) (hL : (∑ t, P t) ≠ 0) :
    Ideal.div (∑ t, ((P t : ℝ) : EReal) * ((v t : ℝ) : EReal)) (∑ t, ((P t : ℝ) : EReal))
      = ∑ t, Ideal.div ((P t : ℝ) : EReal) (∑ t', ((P t' : ℝ) : EReal)) * ((v t : ℝ) : EReal) := by
  rw [coe_sum Finset.univ P]
  simp only [Ideal.div_coe hL, ← EReal.coe_mul]
  rw [coe_sum, coe_sum, ← EReal.coe_mul, Finset.sum_mul]
  congr 1
  apply Finset.sum_congr rfl
  intro t _
  ring

/-- The maximum of a row of reals is a real. -/
theorem rowmax_isReal (f : Fin 2048 → EReal) (h : ∀ t, IsReal (f t)) : IsReal (rowmax f) := by
  have e : rowmax f = (Finset.univ : Finset (Fin 2048)).sup f := rfl
  rw [e]
  obtain ⟨i, _, hi⟩ := Finset.exists_mem_eq_sup (Finset.univ : Finset (Fin 2048)) Finset.univ_nonempty f
  rw [hi]
  exact h i

/-- The exponentials of a row of reals against its maximum are positive reals. -/
theorem pexp_real (sc : Fin 2048 → EReal) (h : ∀ t, IsReal (sc t)) :
    ∃ P : Fin 2048 → ℝ, (∀ t, 0 < P t) ∧ ∀ t, pexp sc t = ((P t : ℝ) : EReal) := by
  obtain ⟨m, hm⟩ := rowmax_isReal sc h
  have h' : ∀ t, ∃ r : ℝ, sc t = (r : EReal) := h
  choose a ha using h'
  refine ⟨fun t => Real.exp (a t - m), fun t => Real.exp_pos _, fun t => ?_⟩
  unfold pexp
  rw [hm, ha t, ← EReal.coe_sub, Ideal.exp_coe]

/-- For a row of real scores and a real column, dividing the contraction by the row's sum is contracting the
    normalised row. -/
theorem head_eq (sc v : Fin 2048 → EReal) (hs : ∀ t, IsReal (sc t)) (hv : ∀ t, IsReal (v t)) :
    Ideal.div (∑ t, pexp sc t * v t) (∑ t, pexp sc t)
      = ∑ t, Ideal.div (pexp sc t) (∑ t', pexp sc t') * v t := by
  obtain ⟨P, hP, hPe⟩ := pexp_real sc hs
  have hv' : ∀ t, ∃ r : ℝ, v t = (r : EReal) := hv
  choose w hw using hv'
  simp only [hPe, hw]
  apply div_sum_real
  exact (Finset.sum_pos (fun t _ => hP t) Finset.univ_nonempty).ne'

/-! ### The projections and the scores at real arguments -/

theorem proj_isReal (x : X3) (w : WH) (hx : ∀ i, IsReal (x i)) (hw : ∀ i, IsReal (w i))
    (b : Fin 2) (s : Fin 2048) (h : Fin 16) (e : Fin 64) : IsReal (proj x w b s h e) := by
  unfold proj
  exact isReal_sum _ _ (fun d _ => (hx _).mul (hw _))

theorem qk_isReal (xq xk : X3) (wq wk : WH) (hq : ∀ i, IsReal (xq i)) (hk : ∀ i, IsReal (xk i))
    (hwq : ∀ i, IsReal (wq i)) (hwk : ∀ i, IsReal (wk i))
    (b : Fin 2) (h : Fin 16) (s t : Fin 2048) : IsReal (qk xq xk wq wk b h s t) := by
  unfold qk
  exact isReal_sum _ _ (fun e _ => (proj_isReal xq wq hq hwq b s h e).mul (proj_isReal xk wk hk hwk b t h e))

/-- Scaling by one eighth is dividing by the square root of sixty-four. -/
theorem scK_eq_scR (xq xk : X3) (wq wk : WH) (b : Fin 2) (h : Fin 16) (s : Fin 2048) :
    scK xq xk wq wk b h s = scR xq xk wq wk b h s := by
  funext t
  simp only [scK, scR, ofBits_eighth, sqrt_64, Ideal.div_coe (by norm_num : (8 : ℝ) ≠ 0)]

theorem scK_isReal (xq xk : X3) (wq wk : WH) (hq : ∀ i, IsReal (xq i)) (hk : ∀ i, IsReal (xk i))
    (hwq : ∀ i, IsReal (wq i)) (hwk : ∀ i, IsReal (wk i))
    (b : Fin 2) (h : Fin 16) (s t : Fin 2048) : IsReal (scK xq xk wq wk b h s t) := by
  unfold scK
  rw [ofBits_eighth]
  exact (qk_isReal xq xk wq wk hq hk hwq hwk b h s t).mul ⟨_, rfl⟩

/-- The two head outputs agree at real arguments. -/
theorem headK_eq_headR (xq xk xv : X3) (wq wk wv : WH)
    (hq : ∀ i, IsReal (xq i)) (hk : ∀ i, IsReal (xk i)) (hv : ∀ i, IsReal (xv i))
    (hwq : ∀ i, IsReal (wq i)) (hwk : ∀ i, IsReal (wk i)) (hwv : ∀ i, IsReal (wv i))
    (b : Fin 2) (h : Fin 16) (s : Fin 2048) (e : Fin 64) :
    headK xq xk xv wq wk wv b h s e = headR xq xk xv wq wk wv b h s e := by
  unfold headK headR
  rw [← scK_eq_scR]
  exact head_eq (scK xq xk wq wk b h s) (fun t => proj xv wv b t h e)
    (scK_isReal xq xk wq wk hq hk hwq hwk b h s) (fun t => proj_isReal xv wv hv hwv b t h e)

/-! ### Eight blocks of 128 features are the 1024 features -/

theorem sum_pairs (f : Fin 1024 → EReal) :
    ∑ p : Fin 8, ∑ j : Fin 128, f (pj p j) = ∑ d : Fin 1024, f d := by
  rw [← Fintype.sum_prod_type' (f := fun p j => f (pj p j))]
  refine Fintype.sum_equiv (finProdFinEquiv : Fin 8 × Fin 128 ≃ Fin (8 * 128)) _ _ (fun x => ?_)
  congr 1
  apply Fin.ext
  simp [pj, finProdFinEquiv]
  ring

/-! ### The two results -/

theorem outK_eq_outR (xq xk xv : Cert.Spec.X3) (wq wk wv : Cert.Spec.WH) (wo : Cert.Spec.WO)
    (hq : ∀ i, ∃ r : ℝ, xq i = (r : EReal)) (hk : ∀ i, ∃ r : ℝ, xk i = (r : EReal)) (hv : ∀ i, ∃ r : ℝ, xv i = (r : EReal))
    (hwq : ∀ i, ∃ r : ℝ, wq i = (r : EReal)) (hwk : ∀ i, ∃ r : ℝ, wk i = (r : EReal)) (hwv : ∀ i, ∃ r : ℝ, wv i = (r : EReal))
    (b : Fin 2) (s : Fin 2048) (o : Fin 1024) :
    Cert.Spec.outK xq xk xv wq wk wv wo b s o = Cert.Spec.outR xq xk xv wq wk wv wo b s o := by
  unfold outK outR
  refine (sum_pairs (fun d => headK xq xk xv wq wk wv b (hd d) s (ft d) * wo (ix2 o d))).trans ?_
  refine Finset.sum_congr rfl (fun d _ => ?_)
  rw [headK_eq_headR xq xk xv wq wk wv hq hk hv hwq hwk hwv]

end Cert.Alg

end
-- ==== Proof.Finite.lean ====
/- Finiteness read off the precondition: each of the seven conjuncts says that every entry of one argument array has an absolute
   value below +infinity, so every entry of every argument is a real number. -/
import proofs.«415008_j37847251812357_3_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The word 0x7F800000 denotes +infinity. -/
theorem ofBits_inf : Ideal.ofBits .f32 0x7F800000#32 = (⊤ : EReal) := by
  simp [Ideal.ofBits, Ideal.ieee]

/-- An extended real whose absolute value is below +infinity is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hc
    simp [Ideal.cmp, hc] at h
  have h1 : x ≠ ⊤ := fun e => by rw [e] at hlt; simp at hlt
  have h2 : x ≠ ⊥ := fun e => by rw [e] at hlt; simp at hlt
  exact ⟨x.toReal, (EReal.coe_toReal h1 h2).symm⟩

variable [Cert.Pre_finite_inputs.Facts]

open Cert.Pre_finite_inputs in
/-- Under the precondition every entry of every argument array is a real number. -/
theorem real_of_pre (a0 a1 a2 : FVec Ideal S2x2048x1024 .f32) (a3 a4 a5 : FVec Ideal S16x64x1024 .f32)
    (a6 : FVec Ideal S1024x1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [fn, fn_part1] at h0
  have andv : ∀ (a b : IVec S_ 1), andi a b ix0 = IntOp.andi (a ix0) (b ix0) := fun _ _ => rfl
  simp only [andv, IntOp.andi_eq_one] at h0
  obtain ⟨⟨⟨⟨⟨⟨e0, e1⟩, e2⟩, e3⟩, e4⟩, e5⟩, e6⟩ := h0
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i),
    fun i => real_of_abs_lt (a4 i) (Host.reduce_andi_all _ _ _ _ _ e4 i),
    fun i => real_of_abs_lt (a5 i) (Host.reduce_andi_all _ _ _ _ _ e5 i),
    fun i => real_of_abs_lt (a6 i) (Host.reduce_andi_all _ _ _ _ _ e6 i)⟩

end Cert.Finite

end
-- ==== Proof.lean ====
/- Multi-head attention with a fused output projection against its jnp reference, over the extended reals.
   The kernel projects the three inputs by three tiled matrix products (heads side by side: feature 64 h + e), then one call per
   (batch, query tile, head pair) computes, for the pair's two heads, exp (q.k / 8 - row maximum), contracts it with v and divides by
   the row's sum, multiplies the pair's 128 features by their rows of the transposed output weight and adds that to an accumulator
   kept across the eight head pairs, written out after the last. The reference divides the scores by sqrt 64, normalises the
   exponentials before contracting with v, and contracts all 1024 features with the output weight at once. On real (finite)
   arguments the two agree: 1/8 is 1/sqrt 64, dividing a finite sum by a nonzero real commutes with the sum, and the sum over
   1024 features splits into the eight head pairs. The frames: each program's whole run, read at its arguments. -/
import proofs.«415008_j37847251812357_3_alg».proof.Defs
import proofs.«415008_j37847251812357_3_alg».proof.Proof.Gen.Kernel
import proofs.«415008_j37847251812357_3_alg».proof.Proof.Gen.KernelIdeal
import proofs.«415008_j37847251812357_3_alg».proof.Proof.Gen.ReferenceIdeal
import proofs.«415008_j37847251812357_3_alg».proof.Proof.Gen.Pre_finite_inputs
import proofs.«415008_j37847251812357_3_alg».proof.Proof.Gen.ReferenceIdeal.Run
import proofs.«415008_j37847251812357_3_alg».proof.Proof.Gen.ReferenceIdeal.Read
import proofs.«415008_j37847251812357_3_alg».proof.Proof.KI.Run
import proofs.«415008_j37847251812357_3_alg».proof.Proof.K.Run
import proofs.«415008_j37847251812357_3_alg».proof.Proof.Val.ValA
import proofs.«415008_j37847251812357_3_alg».proof.Proof.Val.ValR
import proofs.«415008_j37847251812357_3_alg».proof.Proof.Spec
import proofs.«415008_j37847251812357_3_alg».proof.Proof.Ref
import proofs.«415008_j37847251812357_3_alg».proof.Proof.Alg
import proofs.«415008_j37847251812357_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

/-- The kernel as printed (word level) runs to the end and leaves its arguments unchanged: the same run, read at the words. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W6_main_arg0 m c),
     (h c _ (Cert.Kernel.Hand.mem_uc Cert.Kernel.main_arg1 (by decide))).trans (Cert.Kernel.Hand.W6_main_arg1 m c),
     (h c _ (Cert.Kernel.Hand.mem_uc Cert.Kernel.main_arg2 (by decide))).trans (Cert.Kernel.Hand.W6_main_arg2 m c),
     (h c _ (Cert.Kernel.Hand.mem_uc Cert.Kernel.main_arg3 (by decide))).trans (Cert.Kernel.Hand.W6_main_arg3 m c),
     (h c _ (Cert.Kernel.Hand.mem_uc Cert.Kernel.main_arg4 (by decide))).trans (Cert.Kernel.Hand.W6_main_arg4 m c),
     (h c _ (Cert.Kernel.Hand.mem_uc Cert.Kernel.main_arg5 (by decide))).trans (Cert.Kernel.Hand.W6_main_arg5 m c),
     (h c _ (Cert.Kernel.Hand.mem_uc Cert.Kernel.main_arg6 (by decide))).trans (Cert.Kernel.Hand.W6_main_arg6 m c)⟩)
    (Cert.Kernel.Hand.run_all (F := Bits) m ρ)

/-- The idealized kernel runs to the end and leaves its arguments unchanged: the whole run read at the seven arguments. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W6_main_arg0 m c),
     (h c _ (Cert.KernelIdeal.Hand.mem_uc Cert.KernelIdeal.main_arg1 (by decide))).trans (Cert.KernelIdeal.Hand.W6_main_arg1 m c),
     (h c _ (Cert.KernelIdeal.Hand.mem_uc Cert.KernelIdeal.main_arg2 (by decide))).trans (Cert.KernelIdeal.Hand.W6_main_arg2 m c),
     (h c _ (Cert.KernelIdeal.Hand.mem_uc Cert.KernelIdeal.main_arg3 (by decide))).trans (Cert.KernelIdeal.Hand.W6_main_arg3 m c),
     (h c _ (Cert.KernelIdeal.Hand.mem_uc Cert.KernelIdeal.main_arg4 (by decide))).trans (Cert.KernelIdeal.Hand.W6_main_arg4 m c),
     (h c _ (Cert.KernelIdeal.Hand.mem_uc Cert.KernelIdeal.main_arg5 (by decide))).trans (Cert.KernelIdeal.Hand.W6_main_arg5 m c),
     (h c _ (Cert.KernelIdeal.Hand.mem_uc Cert.KernelIdeal.main_arg6 (by decide))).trans (Cert.KernelIdeal.Hand.W6_main_arg6 m c)⟩)
    (Cert.KernelIdeal.Hand.run_all (F := Ideal) m ρ)

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array, as the run leaves it, is the kernel's formula of the argument arrays. -/
theorem kernel_value (m : (ℓ : Loc Cert.KernelIdeal.nD Cert.KernelIdeal.τ Cert.KernelIdeal.sig) → Buf (Elt Ideal) ℓ) (c : Dev Cert.KernelIdeal.nD) :
    (Cert.KernelIdeal.Hand.W6 m c (Proc.devRef .tc Cert.KernelIdeal.main_v20) : Cert.KernelIdeal.S2x2048x1024.Idx → EReal)
      = fun i => Cert.Spec.outK (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (i 0) (i 1) (i 2) := by
  rw [Cert.KernelIdeal.Hand.W6_out, Cert.KernelIdeal.Val.arrAt3, Cert.KernelIdeal.Val.V5_q, Cert.KernelIdeal.Val.V5_k, Cert.KernelIdeal.Val.V5_v, Cert.KernelIdeal.Val.V5_wo]
  funext i
  exact Cert.Spec.outKP_projAll _ _ _ _ _ _ _ _ _ _

/-- From memories agreeing on the arguments both programs end with the same result: the kernel's array is `outK` of the
    arguments, the reference's `outR`, and on real arguments (the precondition) the two formulas agree. -/
theorem algebraic : Cert.algebraic_KernelIdeal_ReferenceIdeal := by
  intro m ρ m' ρ' hpre hagree
  refine ⟨fun c => Cert.KernelIdeal.Hand.W6 m c (Proc.devRef .tc Cert.KernelIdeal.main_v20), ?_, ?_⟩
  · exact (θ_run Cert.KernelIdeal.defs _ _).mono (fun r h c =>
      ⟨h c _ (Cert.KernelIdeal.Hand.mem_uc Cert.KernelIdeal.main_v20 (by decide)),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c),
       (h c _ (Cert.KernelIdeal.Hand.mem_uc Cert.KernelIdeal.main_arg5 (by decide))).trans (Cert.KernelIdeal.Hand.W6_main_arg5 m c),
       (h c _ (Cert.KernelIdeal.Hand.mem_uc Cert.KernelIdeal.main_arg6 (by decide))).trans (Cert.KernelIdeal.Hand.W6_main_arg6 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨f0, f1, f2, f3, f4, f5, _⟩ := Cert.Finite.real_of_pre _ _ _ _ _ _ _ (hpre c)
    rw [Cert.ReferenceIdeal.Read.val_main_v24_eq, Cert.ReferenceIdeal.RefValue.ref_eq]
    obtain ⟨e0, e1, e2, e3, e4, e5, e6⟩ := hagree c
    rw [e0, e1, e2, e3, e4, e5, e6]
    refine Eq.trans ?_ (kernel_value m c).symm
    funext i
    exact (Cert.Alg.outK_eq_outR _ _ _ _ _ _ _ f0 f1 f2 f3 f4 f5 (i 0) (i 1) (i 2)).symm

/-- The certificate: the three frames, the (empty) ledger of the idealization, and the equality of the two results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
